-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1000x20480 : S_.BroadcastsInDim S1000x20480 (![] : Fin 0 → Fin S1000x20480.rank)
  reducesTo_S1000x20480_S_d0_1 : S1000x20480.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x20480 1) : IVec S_ 1 :=
  let main_c_5 : IVec S_ 1 := constantI S_ 1 1#1
  let main_v17 : IVec S_ 1 := (fun x v => Host.reduce IntOp.andi x v reducesTo_S1000x20480_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S4096x4096 .f32) (main_arg1 : FVec F S16384x4096 .f32) (main_arg2 : FVec F S16384 .f32) (main_arg3 : FVec F S1000x20480 .f32) (main_arg4 : FVec F S1000 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S1000x20480 .f32 := Host.absf main_arg3
  let main_cst_4 : FVec F S_ .f32 := constant S_ .f32 0x7F800000#32
  let main_v15 : FVec F S1000x20480 .f32 := broadcastInDim S1000x20480 ![] bcast_S_S1000x20480 main_cst_4
  let main_v16 : IVec S1000x20480 1 := cmpf .olt main_v14 main_v15
  fn_part1 (F := F) main_arg4 main_v13 main_v16
-- ==== Kernel.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S1000x4096 : Shape := ⟨2, ![1000, 4096]⟩
abbrev S1000x16384 : Shape := ⟨2, ![1000, 16384]⟩
abbrev S1x16384 : Shape := ⟨2, ![1, 16384]⟩
abbrev S1x1000 : Shape := ⟨2, ![1, 1000]⟩
abbrev S4096x16384 : Shape := ⟨2, ![4096, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4096x1000 : Shape := ⟨2, ![4096, 1000]⟩
abbrev S512x1000 : Shape := ⟨2, ![512, 1000]⟩
abbrev S512x2048 : Shape := ⟨2, ![512, 2048]⟩
abbrev S1000x2048 : Shape := ⟨2, ![1000, 2048]⟩

abbrev nBuf : Space → Nat
  | .hbm => 16
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1000x20480, .f32⟩
  | .hbm, ⟨4, _⟩ => ⟨S1000, .f32⟩
  | .hbm, ⟨5, _⟩ => ⟨S4096x4096, .bf16⟩
  | .hbm, ⟨6, _⟩ => ⟨S16384x4096, .bf16⟩
  | .hbm, ⟨7, _⟩ => ⟨S1000x4096, .f32⟩
  | .hbm, ⟨8, _⟩ => ⟨S1000x4096, .bf16⟩
  | .hbm, ⟨9, _⟩ => ⟨S1000x16384, .f32⟩
  | .hbm, ⟨10, _⟩ => ⟨S1000x16384, .bf16⟩
  | .hbm, ⟨11, _⟩ => ⟨S1x16384, .f32⟩
  | .hbm, ⟨12, _⟩ => ⟨S1x1000, .f32⟩
  | .hbm, ⟨13, _⟩ => ⟨S4096x16384, .bf16⟩
  | .hbm, ⟨14, _⟩ => ⟨S4096x1000, .f32⟩
  | .hbm, ⟨15, _⟩ => ⟨S4096x1000, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S512x4096, .bf16⟩
  | .local _ .vmem, ⟨9, _⟩ => ⟨S512x4096, .bf16⟩
  | .local _ .vmem, ⟨10, _⟩ => ⟨S1000x4096, .bf16⟩
  | .local _ .vmem, ⟨11, _⟩ => ⟨S1x1000, .f32⟩
  | .local _ .vmem, ⟨12, _⟩ => ⟨S512x1000, .f32⟩
  | .local _ .vmem, ⟨13, _⟩ => ⟨S512x1000, .f32⟩
  | .local _ .vmem, ⟨14, _⟩ => ⟨S512x2048, .bf16⟩
  | .local _ .vmem, ⟨15, _⟩ => ⟨S512x2048, .bf16⟩
  | .local _ .vmem, ⟨16, _⟩ => ⟨S1000x2048, .bf16⟩
  | .local _ .vmem, ⟨17, _⟩ => ⟨S1000x2048, .bf16⟩
  | .local _ .vmem, ⟨18, _⟩ => ⟨S512x1000, .f32⟩
  | .local _ .vmem, ⟨19, _⟩ => ⟨S512x1000, .f32⟩
  | .local _ .vmem, ⟨20, _⟩ => ⟨S512x1000, .f32⟩
  | .local _ .vmem, ⟨21, _⟩ => ⟨S512x1000, .f32⟩
  | .local _ .vmem, ⟨22, _⟩ => ⟨S512x1000, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bitsLt_bf16_f32 : FTy.bits .bf16 < FTy.bits .f32
  slices_S1000x20480_S1000x4096_0_0 : S1000x20480.Slices ![0, 0] S1000x4096
  slices_S1000x20480_S1000x16384_0_4096 : S1000x20480.Slices ![0, 4096] S1000x16384
  shapeCasts_S16384_S1x16384 : S16384.ShapeCasts S1x16384
  shapeCasts_S1000_S1x1000 : S1000.ShapeCasts S1x1000
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1000x4096_S1000x4096_0_0 : ∀ a, (![0, 0] : Fin 2 → Nat) a + S1000x4096.size a ≤ S1000x4096.size a
  h_S1000x4096 : 0 < S1000x4096.numel
  shapeCasts_S1000x4096_S1000x4096 : S1000x4096.ShapeCasts S1000x4096
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  dot_S1024x4096_S512x4096_S1024x512_1_1_0_0_n_n_wf : DotDims.WF S1024x4096 S512x4096 S1024x512 [1] [1] [0] [0] [] []
  dot_S512x4096_S1000x4096_S512x1000_1_1_0_0_n_n_wf : DotDims.WF S512x4096 S1000x4096 S512x1000 [1] [1] [0] [0] [] []
  dot_S512x2048_S1000x2048_S512x1000_1_1_0_0_n_n_wf : DotDims.WF S512x2048 S1000x2048 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x16384.size a
  hwx0_3 : ∀ i : grid0.Coords, EltTy.bits .bf16 = 32 ∨ (Rect.block (s := S4096x16384) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x4096.size a ≤ S1000x4096.size a
  hwx1_1 : ∀ i : grid1.Coords, EltTy.bits .bf16 = 32 ∨ (Rect.block (s := S1000x4096) S1000x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S4096x1000.size a
  hwx1_3 : ∀ i : grid1.Coords, EltTy.bits .f32 = 32 ∨ (Rect.block (s := S4096x1000) S512x1000.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x16384.size a
  hwx2_0 : ∀ i : grid2.Coords, EltTy.bits .bf16 = 32 ∨ (Rect.block (s := S4096x16384) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x2048.size a ≤ S1000x16384.size a
  hwx2_1 : ∀ i : grid2.Coords, EltTy.bits .bf16 = 32 ∨ (Rect.block (s := S1000x16384) S1000x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1000.size a ≤ S4096x1000.size a
  hwx2_2 : ∀ i : grid2.Coords, EltTy.bits .f32 = 32 ∨ (Rect.block (s := S4096x1000) S512x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1000.size a ≤ S4096x1000.size a
  hwx2_3 : ∀ i : grid2.Coords, EltTy.bits .f32 = 32 ∨ (Rect.block (s := S4096x1000) S512x1000.size (cc2_transform_3 i) (hinb2_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S512x4096_S1000x4096_S512x1000_1_1_0_0_n_n : DotDims S512x4096 S1000x4096 S512x1000 where
  lhsContracting := [1]
  rhsContracting := [1]
  lhsNonContracting := [0]
  rhsNonContracting := [0]
  lhsBatch := []
  rhsBatch := []
  wf := dot_S512x4096_S1000x4096_S512x1000_1_1_0_0_n_n_wf
def dot_S512x2048_S1000x2048_S512x1000_1_1_0_0_n_n : DotDims S512x2048 S1000x2048 S512x1000 where
  lhsContracting := [1]
  rhsContracting := [1]
  lhsNonContracting := [0]
  rhsNonContracting := [0]
  lhsBatch := []
  rhsBatch := []
  wf := dot_S512x2048_S1000x2048_S512x1000_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1000x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1000x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x1000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S4096x16384 : Shape := ⟨2, ![4096, 16384]⟩
abbrev S1x16384 : Shape := ⟨2, ![1, 16384]⟩
abbrev S_ : Shape := ⟨0, ![]⟩
abbrev S4096x20480 : Shape := ⟨2, ![4096, 20480]⟩
abbrev S4096x1000 : Shape := ⟨2, ![4096, 1000]⟩
abbrev S1x1000 : Shape := ⟨2, ![1, 1000]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1000x20480, .f32⟩
  | .hbm, ⟨4, _⟩ => ⟨S1000, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x20480, .f32⟩
  | .hbm, ⟨13, _⟩ => ⟨S4096x1000, .f32⟩
  | .hbm, ⟨14, _⟩ => ⟨S1x1000, .f32⟩
  | .hbm, ⟨15, _⟩ => ⟨S4096x1000, .f32⟩
  | .hbm, ⟨16, _⟩ => ⟨S4096x1000, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  concatenates_S4096x4096_S4096x16384_S4096x20480_d1 : Shape.Concatenates [S4096x4096, S4096x16384] S4096x20480 1
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x4096_S16384x4096_S4096x16384_1_1_0_0_n_n_wf : DotDims.WF S4096x4096 S16384x4096 S4096x16384 [1] [1] [0] [0] [] []
  dot_S4096x20480_S1000x20480_S4096x1000_1_1_0_0_n_n_wf : DotDims.WF S4096x20480 S1000x20480 S4096x1000 [1] [1] [0] [0] [] []

variable [Facts₀]

def dot_S4096x4096_S16384x4096_S4096x16384_1_1_0_0_n_n : DotDims S4096x4096 S16384x4096 S4096x16384 where
  lhsContracting := [1]
  rhsContracting := [1]
  lhsNonContracting := [0]
  rhsNonContracting := [0]
  lhsBatch := []
  rhsBatch := []
  wf := dot_S4096x4096_S16384x4096_S4096x16384_1_1_0_0_n_n_wf
def dot_S4096x20480_S1000x20480_S4096x1000_1_1_0_0_n_n : DotDims S4096x20480 S1000x20480 S4096x1000 where
  lhsContracting := [1]
  rhsContracting := [1]
  lhsNonContracting := [0]
  rhsNonContracting := [0]
  lhsBatch := []
  rhsBatch := []
  wf := dot_S4096x20480_S1000x20480_S4096x1000_1_1_0_0_n_n_wf

class Facts : Prop extends Facts₀ where

variable [Facts]
-- ==== Proof.BitsLayer1Region.lean ====
/-
  The first pallas_call: the hidden layer. At grid point (i, j) of the 4 x 32 grid the body holds rows
  [1024 i, 1024 i + 1024) of the bf16 copy of x, rows [512 j, 512 j + 512) of the bf16 copy of W1 and columns
  [512 j, 512 j + 512) of b1 laid out as one row, and stores max (x W1^T + b1, 0), rounded to bf16, into block (i, j) of
  the hidden activations. This module states that at ANY contents `V` of the core's buffers at the region's entry:
  what each window's staging buffer holds before and after the body, the body's triple, and the pipeline's
  proof data with the body obligation at every point. Nothing is carried between points.
-/
import proofs.«152252_j88965952569844_1_alg».proof.Proof.Gen.Kernel.Launch
import proofs.«152252_j88965952569844_1_alg».proof.Proof.Gen.Kernel.Skeleton
import proofs.«152252_j88965952569844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the hidden layer's windows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the last fetch: the x rows (window 0, refetched only when i changes), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the W1 rows (window 1), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the b1 columns (window 2). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev rx0 : Rect S1024x4096 := Rect.unit (s := S1024x4096) ![0, 0] S1024x4096.size inb_S1024x4096_S1024x4096_0_0
abbrev rw0 : Rect S512x4096 := Rect.unit (s := S512x4096) ![0, 0] S512x4096.size inb_S512x4096_S512x4096_0_0
abbrev rb0 : Rect S1x512 := Rect.unit (s := S1x512) ![0, 0] S1x512.size inb_S1x512_S1x512_0_0
abbrev ro0 : Rect S1024x512 := Rect.unit (s := S1024x512) ![0, 0] S1024x512.size inb_S1024x512_S1024x512_0_0

/-- The hidden block the body leaves in the output's staging buffer: its one store, of the payload
    max (x W1^T + b1, 0) of the three loaded blocks. -/
def hidden0 (x : Vec F S1024x4096 .bf16) (w : Vec F S512x4096 .bf16) (b : Vec F S1x512 .f32) : Vec F S1024x512 .bf16 :=
  View.canon [⟨ro0, k0_pay1 (View.ld x rx0) (View.ld w rw0) (View.ld b rb0)⟩]

/-- The one store covers the buffer. -/
theorem cover_hidden0 (p : Vec F S1024x512 .bf16) (y : S1024x512.Idx) :
    ∃ pc ∈ ([⟨ro0, p⟩] : List (View.Piece (Elt F) S1024x512 .bf16)), y ∈ pc.1.set :=
  View.cover_of_tiled [⟨ro0, p⟩] S1024x512.size (by rfl) y

/-! ## The body's triple -/

set_option maxHeartbeats 1000000 in
/-- On whole staging memrefs, the inputs' at contents `x`, `w`, `b` and the output's at anything, the body runs to
    the continuation with the inputs as they were and the output's buffer at `hidden0 x w b`. -/
theorem sound_layer1 (c : Dev nD) (E : Set ℕ) (i : grid0.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (x : Vec F S1024x4096 .bf16) (w : Vec F S512x4096 .bf16) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (hidden0 x w b)) -∗ K ⟨⟩))
      ⊢ wp frame (wpE (defs₀ (F := F)) Variants.none c none) E (cc0__layer1_kernel i arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hidden0 _)

/-! ## The pipeline's proof data -/

/-- The proof data of the hidden layer's pipeline on core `c`: the arrays as the region finds them; after the body at
    point `t` each input's buffer still at its block and the output's at the hidden block of the three; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hidden0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = hidden0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_layer1 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Mlp

end
-- ==== Proof.BitsLayer2aRegion.lean ====
/-
  The second pallas_call: the part of the output layer that pairs with x. At grid point i of the 8-point grid the body
  holds rows [512 i, 512 i + 512) of the bf16 copy of x, the whole bf16 copy of W2's first 4096 columns and b2 laid out as
  one row (both fetched once), and stores x W2a^T + b2 into row block i of the partial output. This module states that
  at ANY contents `V` of the core's buffers at the region's entry: what each window's staging buffer holds before and
  after the body, the body's triple, and the pipeline's proof data with the body obligation at every point. Nothing
  is carried between points.
-/
import proofs.«152252_j88965952569844_1_alg».proof.Proof.Gen.Kernel.Launch
import proofs.«152252_j88965952569844_1_alg».proof.Proof.Gen.Kernel.Skeleton
import proofs.«152252_j88965952569844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the partial output's windows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    block index did not move since the last fetch: the x rows (window 0), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the W2a matrix (window 1, fetched once), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the b2 row (window 2, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev rx1 : Rect S512x4096 := Rect.unit (s := S512x4096) ![0, 0] S512x4096.size inb_S512x4096_S512x4096_0_0
abbrev rw1 : Rect S1000x4096 := Rect.unit (s := S1000x4096) ![0, 0] S1000x4096.size inb_S1000x4096_S1000x4096_0_0
abbrev rb1 : Rect S1x1000 := Rect.unit (s := S1x1000) ![0, 0] S1x1000.size inb_S1x1000_S1x1000_0_0
abbrev ro1 : Rect S512x1000 := Rect.unit (s := S512x1000) ![0, 0] S512x1000.size inb_S512x1000_S512x1000_0_0

/-- The partial output block the body leaves in the output's staging buffer: its one store, of the payload
    x W2a^T + b2 of the three loaded blocks. -/
def partial1 (x : Vec F S512x4096 .bf16) (w : Vec F S1000x4096 .bf16) (b : Vec F S1x1000 .f32) : Vec F S512x1000 .f32 :=
  View.canon [⟨ro1, k1_pay1 (View.ld x rx1) (View.ld w rw1) (View.ld b rb1)⟩]

/-- The one store covers the buffer. -/
theorem cover_partial1 (p : Vec F S512x1000 .f32) (y : S512x1000.Idx) :
    ∃ pc ∈ ([⟨ro1, p⟩] : List (View.Piece (Elt F) S512x1000 .f32)), y ∈ pc.1.set :=
  View.cover_of_tiled [⟨ro1, p⟩] S512x1000.size (by rfl) y

/-! ## The body's triple -/

set_option maxHeartbeats 1000000 in
/-- On whole staging memrefs, the inputs' at contents `x`, `w`, `b` and the output's at anything, the body runs to
    the continuation with the inputs as they were and the output's buffer at `partial1 x w b`. -/
theorem sound_layer2a (c : Dev nD) (E : Set ℕ) (i : grid1.Coords)
    (arg1 : Memref sig .tc .vmem S512x4096 .bf16) (harg1 : arg1.IsWhole) (arg2 : Memref sig .tc .vmem S1000x4096 .bf16) (harg2 : arg2.IsWhole)
    (arg3 : Memref sig .tc .vmem S1x1000 .f32) (harg3 : arg3.IsWhole) (arg4 : Memref sig .tc .vmem S512x1000 .f32) (harg4 : arg4.IsWhole)
    (x : Vec F S512x4096 .bf16) (w : Vec F S1000x4096 .bf16) (b : Vec F S1x1000 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (partial1 x w b)) -∗ K ⟨⟩))
      ⊢ wp frame (wpE (defs₀ (F := F)) Variants.none c none) E (cc1__layer2a_kernel i arg1 harg1 arg2 harg2 arg3 harg3 arg4 harg4) K := by
  simp only [cc1__layer2a_kernel_eq_skeleton]; unfold cc1__layer2a_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_partial1 _)

/-! ## The pipeline's proof data -/

/-- The proof data of the partial output's pipeline on core `c`: the arrays as the region finds them; after the body at
    point `t` each input's buffer still at its block and the output's at the partial output block of the three; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => partial1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = partial1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_layer2a c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Mlp

end
-- ==== Proof.BitsLayer2bRuns.lean ====
/-
  The third pallas_call: the part of the output layer that pairs with the hidden activations, accumulated over the
  hidden axis. The grid is 8 x 8, the second coordinate k innermost; at point (i, k) the body holds rows
  [512 i, 512 i + 512) and columns [2048 k, 2048 k + 2048) of the hidden activations, the same columns of the bf16 copy
  of W2's last 16384 columns, and row block i of the partial output. A scratch block carries the running sum: at k = 0
  it is first set to the partial output block; at every k the product of the two blocks is added to it; at k = 7 it is
  copied into the output's staging buffer, which is written back there and only there.
  This module holds what the three cases of the body (k = 0, 0 < k < 7, k = 7) share, at ANY contents `V` of the
  core's buffers at the region's entry, and the body's run in each case; the pieces each run leaves in the scratch
  and in the output's buffer are found by the run itself.
-/
import proofs.«152252_j88965952569844_1_alg».proof.Proof.Gen.Kernel.Launch
import proofs.«152252_j88965952569844_1_alg».proof.Proof.Gen.Kernel.Skeleton
import proofs.«152252_j88965952569844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the accumulating layer's windows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the hidden
    activations' block (window 0), -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- the W2b block (window 1), -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and the partial output's row block (window 2, refetched only when i changes). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "k = 0", as the body computes it from the grid coordinates. -/
abbrev isFirst (i : grid2.Coords) : Prop := (Scalar.cmpi .ne (Scalar.extui (Scalar.cmpi .eq (BitVec.ofNat 32 (i 1).val) 0#32)) 0#32) = 1#1
/-- It holds at the points t with t % 8 = 0. -/
theorem isFirst_iff : ∀ t : Fin cfg2.N, isFirst (grid2.coords t) ↔ t.val % 8 = 0 :=
  (by decide +kernel : ∀ t : Fin grid2.N, isFirst (grid2.coords t) ↔ t.val % 8 = 0)

/-- "k = 7", as the body computes it. -/
abbrev isLast (i : grid2.Coords) : Prop := k2_cond2 i = 1#1
/-- It holds at the points t with t % 8 = 7. -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from k = 7 the body stores nothing into the output's staging buffer, and the pipeline does not write it back. -/
theorem idle2_3 : ∀ t : Fin cfg2.N, ¬isLast (grid2.coords t) → cfg2.idle 3 (grid2.coords t) = true := by decide +kernel
theorem noFlush2_3 : ∀ t : Fin cfg2.N, ¬isLast (grid2.coords t) → (cfg2.win 3).flush t = false := by decide +kernel
/-- At k = 7 it stores into it. -/
theorem live2_3 : ∀ t : Fin cfg2.N, isLast (grid2.coords t) → cfg2.idle 3 (grid2.coords t) = false := by decide +kernel

/-! ## The memrefs the body is called with -/

/-- One staging buffer of the output window, through which its contents are stated. -/
abbrev VO2 : View sig .tc .vmem S512x1000 .f32 := (Memref.whole cc2_stg3_0 : Memref sig .tc .vmem S512x1000 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1000 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1000 .f32 := win2_3.stage (cfg2.slots t 3)
abbrev hs2_3 (t : Fin cfg2.N) : (ms2_3 t).IsWhole := hstage2_3 ((cfg2.slots t 3).cast nbuf2_3)
/-- The scratch that carries the running sum: a whole scoped buffer of the kernel's own. -/
abbrev accM : Memref sig .tc .vmem S512x1000 .f32 := Memref.whole cc2_scratch0
abbrev accV : View sig .tc .vmem S512x1000 .f32 := accM.view

/-- The region invariant of a kernel that names nothing, with the accumulator split out of the scoped rest: the
    accumulator at some contents, every other scoped buffer unopened, the generator register at some state. -/
theorem PhiA2_eq (c : Dev nD) :
    (Pipeline.ΦA spec2 c : sProp 𝕄)
      = iprop(((∃ d, owns (c : Thread nD τ) accM fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [accM, owns_whole]
  rfl

/-! ## The body's run, case by case -/

set_option maxHeartbeats 1000000 in
/-- k = 0. The inputs' staging memrefs at their contents, the output's (idle here) at contents handed back
    untouched, the accumulator at anything: the body runs to the continuation with the inputs as they were and the
    accumulator holding its pieces written (`LS`: the partial output block stored, then the sum with the product). -/
noncomputable def runFirst (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i)
    (x0 : Vec F S512x2048 .bf16) (x1 : Vec F S1000x2048 .bf16) (x2 : Vec F S512x1000 .f32) :
    Σ' (L3 : List (View.Piece (Elt F) S512x1000 .f32)), { LS : List (View.Piece (Elt F) S512x1000 .f32) //
      ∀ (xi3 : Vec F S512x1000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨[], ?_, fun xi3 E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- 0 < k < 7. As above, with the accumulator at the contents `xs` the point before left: its one piece is the sum
    of `xs` with the product. -/
noncomputable def runMiddle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i)
    (x0 : Vec F S512x2048 .bf16) (x1 : Vec F S1000x2048 .bf16) (x2 : Vec F S512x1000 .f32) (xs : Vec F S512x1000 .f32) :
    Σ' (L3 : List (View.Piece (Elt F) S512x1000 .f32)), { LS : List (View.Piece (Elt F) S512x1000 .f32) //
      ∀ (xi3 : Vec F S512x1000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨[], ?_, fun xi3 E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- k = 7. As the middle case, and the output's staging memref, at anything, ends with its pieces written (`L3`: the
    accumulator's final contents). -/
noncomputable def runLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i)
    (x0 : Vec F S512x2048 .bf16) (x1 : Vec F S1000x2048 .bf16) (x2 : Vec F S512x1000 .f32) (xs : Vec F S512x1000 .f32) :
    Σ' (L3 : List (View.Piece (Elt F) S512x1000 .f32)), { LS : List (View.Piece (Elt F) S512x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨?_, ?_, fun E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Mlp

end
-- ==== Proof.BitsLayer2bRegion.lean ====
/-
  The third pallas_call, continued: what the accumulator and the output's staging buffer hold after each grid point, by
  recursion on the point (the case at the point, run at the point's memrefs and blocks, over what the point before
  left in the accumulator); the region invariant that carries the accumulator's contents from point to point; the
  pipeline's proof data; and the body obligation at every point, by cases on k = t % 8.
-/
import proofs.«152252_j88965952569844_1_alg».proof.Proof.BitsLayer2bRuns

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the runs' pieces read back -/

/-- k = 0: the accumulator's two pieces tile it. -/
theorem accCover_first (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i) (x0 : Vec F S512x2048 .bf16) (x1 : Vec F S1000x2048 .bf16) (x2 : Vec F S512x1000 .f32) (y : S512x1000.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x1000.size (by sl_kernel_rfl) y
/-- What k = 0 leaves in the accumulator. -/
def accFirst (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i) (x0 : Vec F S512x2048 .bf16) (x1 : Vec F S1000x2048 .bf16) (x2 : Vec F S512x1000 .f32) : Vec F S512x1000 .f32 :=
  accV.read (Elt F) (accV.writes (Elt F) accV.junk (runFirst c i arg2 harg2 arg3 harg3 arg4 harg4 arg5 harg5 arg6 harg6 hc0 hc1 x0 x1 x2).2.1)

/-- 0 < k < 7: the accumulator's one piece tiles it. -/
theorem accCover_middle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i) (x0 : Vec F S512x2048 .bf16) (x1 : Vec F S1000x2048 .bf16) (x2 : Vec F S512x1000 .f32) (xs : Vec F S512x1000 .f32) (y : S512x1000.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S512x1000.size (by sl_kernel_rfl) y
/-- What 0 < k < 7 leaves in the accumulator, over what the point before left. -/
def accMiddle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i) (x0 : Vec F S512x2048 .bf16) (x1 : Vec F S1000x2048 .bf16) (x2 : Vec F S512x1000 .f32) (xs : Vec F S512x1000 .f32) : Vec F S512x1000 .f32 :=
  accV.read (Elt F) (accV.writes (Elt F) accV.junk (runMiddle c i arg2 harg2 arg3 harg3 arg4 harg4 arg5 harg5 arg6 harg6 hc0 hc1 x0 x1 x2 xs).2.1)

/-- k = 7: the accumulator's piece, and the output buffer's piece, tile their buffers. -/
theorem accCover_last (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) (y : S512x1000.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S512x1000.size (by sl_kernel_rfl) y
theorem outCover_last (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) (y : S512x1000.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S512x1000.size (by sl_kernel_rfl) y
/-- What k = 7 leaves in the accumulator, -/
def accLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) : Vec F S512x1000 .f32 :=
  accV.read (Elt F) (accV.writes (Elt F) accV.junk (runLast c i arg2 harg2 arg3 harg3 arg4 harg4 arg5 harg5 arg6 harg6 hc0 hc1 x0 x1 x2 xs).2.1)
/-- and in the output's staging buffer. -/
def outLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) : Vec F S512x1000 .f32 :=
  VO2.read (Elt F) (VO2.writes (Elt F) VO2.junk (runLast c i arg2 harg2 arg3 harg3 arg4 harg4 arg5 harg5 arg6 harg6 hc0 hc1 x0 x1 x2 xs).1)

/-! ## Point by point -/

/-- After the body at position `n`: (what the output's staging buffer holds, what the accumulator holds). Away from
    k = 7 the first component is a placeholder nothing consults (the window is idle there and not written back). -/
def stateAt (c : Dev nD) : (n : ℕ) → n < cfg2.N → Vec F S512x1000 .f32 × Vec F S512x1000 .f32
  | 0, hn => (VO2.read (Elt F) VO2.junk, accFirst c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM (Memref.isWhole_whole _) ((isFirst_iff ⟨0, hn⟩).mpr (Nat.zero_mod _)) (fun h => (fun h => by (try dsimp only at h); omega) ((isLast_iff ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (VO2.read (Elt F) VO2.junk, accFirst c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) ((isFirst_iff ⟨n + 1, hn⟩).mpr h0) (fun h => h1 ((isLast_iff ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) ((isLast_iff ⟨n + 1, hn⟩).mpr h1) (iblk2 V c 0 ⟨n + 1, hn⟩) (iblk2 V c 1 ⟨n + 1, hn⟩) (iblk2 V c 2 ⟨n + 1, hn⟩) (stateAt c n (Nat.lt_of_succ_lt hn)).2,
         accLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) ((isLast_iff ⟨n + 1, hn⟩).mpr h1) (iblk2 V c 0 ⟨n + 1, hn⟩) (iblk2 V c 1 ⟨n + 1, hn⟩) (iblk2 V c 2 ⟨n + 1, hn⟩) (stateAt c n (Nat.lt_of_succ_lt hn)).2)
      else
        (VO2.read (Elt F) VO2.junk, accMiddle c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) (fun h => h1 ((isLast_iff ⟨n + 1, hn⟩).mp h)) (iblk2 V c 0 ⟨n + 1, hn⟩) (iblk2 V c 1 ⟨n + 1, hn⟩) (iblk2 V c 2 ⟨n + 1, hn⟩) (stateAt c n (Nat.lt_of_succ_lt hn)).2)

/-- `stateAt` at a point with k = 0. -/
theorem stateAt_first (c : Dev nD) (t : Fin cfg2.N) (h0 : t.val % 8 = 0) (h1 : ¬t.val % 8 = 7) :
    stateAt V c t.val t.isLt = (VO2.read (Elt F) VO2.junk, accFirst c (grid2.coords t) (ms2_0 t) (hs2_0 t) (ms2_1 t) (hs2_1 t) (ms2_2 t) (hs2_2 t) (ms2_3 t) (hs2_3 t) accM (Memref.isWhole_whole _) ((isFirst_iff t).mpr h0) (fun h => h1 ((isLast_iff t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `stateAt` at a point with 0 < k < 7, over what the point before left. -/
theorem stateAt_middle (c : Dev nD) (t : Fin cfg2.N) (h0 : ¬t.val % 8 = 0) (h1 : ¬t.val % 8 = 7) :
    stateAt V c t.val t.isLt = (VO2.read (Elt F) VO2.junk, accMiddle c (grid2.coords t) (ms2_0 t) (hs2_0 t) (ms2_1 t) (hs2_1 t) (ms2_2 t) (hs2_2 t) (ms2_3 t) (hs2_3 t) accM (Memref.isWhole_whole _) (fun h => h0 ((isFirst_iff t).mp h)) (fun h => h1 ((isLast_iff t).mp h)) (iblk2 V c 0 t) (iblk2 V c 1 t) (iblk2 V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt` at a point with k = 7, over what the point before left. -/
theorem stateAt_last (c : Dev nD) (t : Fin cfg2.N) (h0 : ¬t.val % 8 = 0) (h1 : t.val % 8 = 7) :
    stateAt V c t.val t.isLt = (outLast c (grid2.coords t) (ms2_0 t) (hs2_0 t) (ms2_1 t) (hs2_1 t) (ms2_2 t) (hs2_2 t) (ms2_3 t) (hs2_3 t) accM (Memref.isWhole_whole _) (fun h => h0 ((isFirst_iff t).mp h)) ((isLast_iff t).mpr h1) (iblk2 V c 0 t) (iblk2 V c 1 t) (iblk2 V c 2 t) (stateAt V c (t.val - 1) (Nat.lt_of_le_of_lt (Nat.sub_le _ _) t.isLt)).2,
      accLast c (grid2.coords t) (ms2_0 t) (hs2_0 t) (ms2_1 t) (hs2_1 t) (ms2_2 t) (hs2_2 t) (ms2_3 t) (hs2_3 t) accM (Memref.isWhole_whole _) (fun h => h0 ((isFirst_iff t).mp h)) ((isLast_iff t).mpr h1) (iblk2 V c 0 t) (iblk2 V c 1 t) (iblk2 V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents carried from point to point -/

/-- Before position `n`: before the first point the accumulator is at anything (the invariant of a kernel that names
    nothing); afterwards it is at what the point before left, every other scoped buffer unopened and the generator
    register at some state. -/
def accInv (c : Dev nD) : (n : ℕ) → n ≤ cfg2.N → sProp 𝕄
  | 0, _ => Pipeline.ΦA spec2 c
  | n + 1, hn => iprop((owns (c : Thread nD τ) accM fullShare ((stateAt V c n hn).2)
      ∗ Pipeline.scopedRestBut (Ix := Unit) (Name := ℕ) (U := UR sig nD τ) (Lvl := ℕ) (Val := Elt F) spec2 c [cc2_scratch0])
      ∗ (∃ r, prngReg c r))

theorem accInv_zero (c : Dev nD) (n : ℕ) (h : n ≤ cfg2.N) (hz : n = 0) : accInv V c n h = Pipeline.ΦA spec2 c := by
  subst hz; rfl

theorem accInv_succ (c : Dev nD) (n : ℕ) (hn : n < cfg2.N) :
    accInv V c (n + 1) hn = iprop((owns (c : Thread nD τ) accM fullShare ((stateAt V c n hn).2)
      ∗ Pipeline.scopedRestBut (Ix := Unit) (Name := ℕ) (U := UR sig nD τ) (Lvl := ℕ) (Val := Elt F) spec2 c [cc2_scratch0])
      ∗ (∃ r, prngReg c r)) := rfl

theorem accInv_pos (c : Dev nD) (n : ℕ) (h : n ≤ cfg2.N) (hz : n ≠ 0) :
    accInv V c n h = iprop((owns (c : Thread nD τ) accM fullShare ((stateAt V c (n - 1) (by omega)).2)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The pipeline's proof data -/

/-- The proof data of the accumulating layer's pipeline on core `c`: the arrays as the region finds them; after the
    body at point `t` each input's buffer still at its block and the output's at `stateAt`'s first component; the
    invariant carries the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (stateAt V c t.val t.isLt).1
  Φ t := accInv V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem accInv_castSucc (c : Dev nD) (t : Fin cfg2.N) :
    (dat2 V c).Φ t.castSucc = accInv V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (stateAt V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [live2_0 t, after2_0]
theorem leaves2_1 (c : Dev nD) (t : Fin cfg2.N) :
    (dat2 V c).leavesExact 1 t = owns (c : Thread nD τ) (ms2_1 t) fullShare (iblk2 V c 1 t) := by
  unfold Dat.leavesExact; rw [live2_1 t, after2_1]
theorem leaves2_2 (c : Dev nD) (t : Fin cfg2.N) :
    (dat2 V c).leavesExact 2 t = owns (c : Thread nD τ) (ms2_2 t) fullShare (iblk2 V c 2 t) := by
  unfold Dat.leavesExact; rw [live2_2 t, after2_2]

set_option maxHeartbeats 4800000 in
/-- The body at any point, by cases on k: the inputs' memrefs hold their blocks; the invariant hands the body the
    accumulator at what the point before left (at anything before the first point) and takes it back at this point's
    contents; away from k = 7 the output's buffer goes back untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accInv V c (t.val + 1) t.isLt from rfl, accInv_succ]
  rw [leaves2_0, leaves2_1, leaves2_2]
  have hN : t.val < 64 := lt_of_lt_of_eq t.isLt (show cfg2.N = 64 from N_2)
  by_cases h0 : t.val % 8 = 0
  · have h1 : ¬t.val % 8 = 7 := by omega
    rw [Dat.leavesExact_idle (dat2 V c) 3 t (idle2_3 t (fun h => h1 ((isLast_iff t).mp h))) (noFlush2_3 t (fun h => h1 ((isLast_iff t).mp h)))]
    rw [stateAt_first V c t h0 h1]
    unfold accFirst; (try dsimp only)
    by_cases hz : t.val = 0
    · rw [accInv_castSucc V c t, accInv_zero V c _ _ hz, PhiA2_eq]
      iintro ⟨⟨⟨HS, Hrest⟩, Hg⟩, Ho, ⟨%d0, H0⟩, ⟨%d1, H1⟩, ⟨%d2, H2⟩, ⟨%d3, H3⟩⟩
      iapply ((runFirst c (grid2.coords t) _ _ _ _ _ _ _ _ _ _ ((isFirst_iff t).mpr h0) (fun h => h1 ((isLast_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runFirst c (grid2.coords t) _ _ _ _ _ _ _ _ _ _ ((isFirst_iff t).mpr h0) (fun h => h1 ((isLast_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [live2_3 t ((isLast_iff t).mpr h1)], after2_3]
      rw [stateAt_last V c t h0 h1]
      unfold outLast accLast; (try dsimp only)
      rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runLast c (grid2.coords t) _ _ _ _ _ _ _ _ _ _ (fun h => h0 ((isFirst_iff t).mp h)) ((isLast_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat2 V c) 3 t (idle2_3 t (fun h => h1 ((isLast_iff t).mp h))) (noFlush2_3 t (fun h => h1 ((isLast_iff t).mp h)))]
      rw [stateAt_middle V c t h0 h1]
      unfold accMiddle; (try dsimp only)
      rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runMiddle c (grid2.coords t) _ _ _ _ _ _ _ _ _ _ (fun h => h0 ((isFirst_iff t).mp h)) (fun h => h1 ((isLast_iff t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_middle c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem accInv_in (c : Dev nD) : Pipeline.ΦA spec2 c ⊢ (dat2 V c).Φ 0 := by
  rw [show (dat2 V c).Φ 0 = accInv V c 0 (Nat.zero_le _) from rfl, accInv_zero V c 0 _ rfl]
  try exact Idealize.SL.BI.Entails.refl _

/-- After any point but the first position the invariant gives that back: the accumulator's contents are forgotten. -/
theorem accInv_out (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = accInv V c (Fin.last cfg2.N).val (Nat.le_of_lt_succ (Fin.last cfg2.N).isLt) from rfl,
    accInv_pos V c _ _ ht, PhiA2_eq]
  iintro ⟨⟨HS, Hrest⟩, Hg⟩
  isplitl [HS Hrest]
  · isplitl [HS]
    · iexists _; iexact HS
    iexact Hrest
  iexact Hg

end Cert.Kernel.Mlp

end
-- ==== Proof.BitsMainRun.lean ====
/-
  @main from the launch to the return: the host operations (the bf16 copies of x and W1, the two column ranges of W2
  and their bf16 copies, b1 and b2 laid out as rows), then the three pallas_calls in order. The contents of the core's
  unscoped buffers at each boundary are a fold from the launch memory: after the host operations; after each region,
  that region's arrays at what its write-backs leave and every other buffer as it was. Each region is a segment entered
  from the boundary before it and left at the one after it; one launch over the four segments gives: every weakly fair
  execution terminates, nothing faults, and every unscoped buffer ends at the last boundary's contents. Read at the
  arguments that is the frame; read at the result buffer it is what the third region's write-backs leave.
-/
import proofs.«152252_j88965952569844_1_alg».proof.Proof.BitsLayer1Region
import proofs.«152252_j88965952569844_1_alg».proof.Proof.BitsLayer2aRegion
import proofs.«152252_j88965952569844_1_alg».proof.Proof.BitsLayer2bRegion

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the host operations: the first region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the hidden layer's region. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the partial output's region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the accumulating region: the return. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = E4 m ρ c (Pipeline.arrRef spec2 w) :=
  (B4_arr m ρ c w).symm
theorem hrest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-! ## The arguments end as launched -/

/-- `main_arg0` ends as launched: no host operation writes it and no region has it as an output. -/
theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and no region has it as an output. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and no region has it as an output. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and no region has it as an output. -/
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and no region has it as an output. -/
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result buffer ends at what the accumulating region's write-backs leave. -/
theorem B4_result (c : Dev nD) : B4 m ρ c (Proc.devRef .tc main_v10) = (dat2 (E3 m ρ) c).arrAt 3 cfg2.N :=
  B4_arr m ρ c 3

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev noVariants : Variants := Variants.none
/-- No core owes another anything. -/
abbrev noDues : GSem nD τ sig → Finset Unit := fun _ => ∅
abbrev noLevel : GSem nD τ sig → Unit → ℕ := fun _ _ => 0
/-- Beside the buffers: the generator register at some state, and the core owing nothing. -/
abbrev riding (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem hostOps0_allocates_nothing : (hostOps0 : List (HloOp τ sig (Elt F))).Forall fun op => op.fresh = ∅ := by
  simp only [List.Forall]; repeat' constructor
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev atReturn (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The hidden layer's region: entered with every unscoped buffer at `B1`, left at `B2`. -/
def region0 : Pipeline.RegionSeg (pcfgs (F := F)) adm (pdats m ρ) () defs₀ noVariants noDues noLevel 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noDues noLevel 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The partial output's region: entered at `B2`, left at `B3`. -/
def region1 : Pipeline.RegionSeg (pcfgs (F := F)) adm (pdats m ρ) () defs₀ noVariants noDues noLevel 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noDues noLevel 1 fun _ _ => rfl
  pre c := iprop(StableHlo.held (c : Thread nD τ) (Pipeline.ucRefs τ sig) (B2 m ρ c) ∗ riding c)
  post c := iprop(StableHlo.held (c : Thread nD τ) (Pipeline.ucRefs τ sig) (B3 m ρ c) ∗ riding c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered at `B3`, left at `B4`. Its invariant starts as the scoped rest with the
    accumulator at anything and ends giving that back. -/
def region2 : Pipeline.RegionSeg (pcfgs (F := F)) adm (pdats m ρ) () defs₀ noVariants noDues noLevel 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noDues noLevel 2 fun _ _ => rfl
  pre c := iprop(StableHlo.held (c : Thread nD τ) (Pipeline.ucRefs τ sig) (B3 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from accInv_out (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segments : List (Pipeline.Seg (pcfgs (F := F)) adm (pdats m ρ) () defs₀ noVariants noDues noLevel) :=
  [ .host (hostSeg hostOps0 hostOps0_sub hostOps0_allocates_nothing (B0 m ρ)),
    .region (region0 m ρ),
    .region (region1 m ρ),
    .region (region2 m ρ) ]
theorem main_is_segments (c : Dev nD) : main (F := F) c = Pipeline.Seg.run (segments m ρ) := (main_chain c).trans (by chain_rfl)

set_option backward.isDefEq.respectTransparency.types false in
/-- THE RUN: from any memory with zero counters every weakly fair execution of @main terminates, nothing faulting, and
    every unscoped buffer of every core ends at the last boundary's contents. -/
theorem run_to_return : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVariants noDues noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atReturn m ρ)
    (hch := ⟨fun _ => .rfl, fun _ => .rfl, fun _ => .rfl, fun _ => .rfl, fun _ => .rfl⟩)
    (hinit := by
      refine Pipeline.initEach noDues noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME, and the result buffer's final contents: the arguments end as launched, the result at what the third
    region's write-backs leave. -/
theorem run_main : θ_run defs (onTc (τ := τ) (main (F := F))) ⟨m, fun _ => 0, ρ⟩ (fun r => ∀ c : Dev nD,
      r.2.mem ((c.tc : Thread nD τ).loc main_v10) = (dat2 (E3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
    ⟨(h c _ (mem_unscoped main_v10 (by decide))).trans (B4_result m ρ c),
     (h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c)⟩)
    (run_to_return m ρ)

end Cert.Kernel.Mlp

end
-- ==== Proof.Layer1Region.lean ====
/-
  The first pallas_call: the hidden layer. At grid point (i, j) of the 4 x 32 grid the body holds rows
  [1024 i, 1024 i + 1024) of the bf16 copy of x, rows [512 j, 512 j + 512) of the bf16 copy of W1 and columns
  [512 j, 512 j + 512) of b1 laid out as one row, and stores max (x W1^T + b1, 0), rounded to bf16, into block (i, j) of
  the hidden activations. This module states that at ANY contents `V` of the core's buffers at the region's entry:
  what each window's staging buffer holds before and after the body, the body's triple, and the pipeline's
  proof data with the body obligation at every point. Nothing is carried between points.
-/
import proofs.«152252_j88965952569844_1_alg».proof.Proof.Gen.KernelIdeal.Launch
import proofs.«152252_j88965952569844_1_alg».proof.Proof.Gen.KernelIdeal.Skeleton
import proofs.«152252_j88965952569844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the hidden layer's windows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the last fetch: the x rows (window 0, refetched only when i changes), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the W1 rows (window 1), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the b1 columns (window 2). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev rx0 : Rect S1024x4096 := Rect.unit (s := S1024x4096) ![0, 0] S1024x4096.size inb_S1024x4096_S1024x4096_0_0
abbrev rw0 : Rect S512x4096 := Rect.unit (s := S512x4096) ![0, 0] S512x4096.size inb_S512x4096_S512x4096_0_0
abbrev rb0 : Rect S1x512 := Rect.unit (s := S1x512) ![0, 0] S1x512.size inb_S1x512_S1x512_0_0
abbrev ro0 : Rect S1024x512 := Rect.unit (s := S1024x512) ![0, 0] S1024x512.size inb_S1024x512_S1024x512_0_0

/-- The hidden block the body leaves in the output's staging buffer: its one store, of the payload
    max (x W1^T + b1, 0) of the three loaded blocks. -/
def hidden0 (x : Vec F S1024x4096 .bf16) (w : Vec F S512x4096 .bf16) (b : Vec F S1x512 .f32) : Vec F S1024x512 .bf16 :=
  View.canon [⟨ro0, k0_pay1 (View.ld x rx0) (View.ld w rw0) (View.ld b rb0)⟩]

/-- The one store covers the buffer. -/
theorem cover_hidden0 (p : Vec F S1024x512 .bf16) (y : S1024x512.Idx) :
    ∃ pc ∈ ([⟨ro0, p⟩] : List (View.Piece (Elt F) S1024x512 .bf16)), y ∈ pc.1.set :=
  View.cover_of_tiled [⟨ro0, p⟩] S1024x512.size (by rfl) y

/-! ## The body's triple -/

set_option maxHeartbeats 1000000 in
/-- On whole staging memrefs, the inputs' at contents `x`, `w`, `b` and the output's at anything, the body runs to
    the continuation with the inputs as they were and the output's buffer at `hidden0 x w b`. -/
theorem sound_layer1 (c : Dev nD) (E : Set ℕ) (i : grid0.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (x : Vec F S1024x4096 .bf16) (w : Vec F S512x4096 .bf16) (b : Vec F S1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (hidden0 x w b)) -∗ K ⟨⟩))
      ⊢ wp frame (wpE (defs₀ (F := F)) Variants.none c none) E (cc0__layer1_kernel i arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hidden0 _)

/-! ## The pipeline's proof data -/

/-- The proof data of the hidden layer's pipeline on core `c`: the arrays as the region finds them; after the body at
    point `t` each input's buffer still at its block and the output's at the hidden block of the three; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hidden0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = hidden0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_layer1 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Mlp

end
-- ==== Proof.Layer2aRegion.lean ====
/-
  The second pallas_call: the part of the output layer that pairs with x. At grid point i of the 8-point grid the body
  holds rows [512 i, 512 i + 512) of the bf16 copy of x, the whole bf16 copy of W2's first 4096 columns and b2 laid out as
  one row (both fetched once), and stores x W2a^T + b2 into row block i of the partial output. This module states that
  at ANY contents `V` of the core's buffers at the region's entry: what each window's staging buffer holds before and
  after the body, the body's triple, and the pipeline's proof data with the body obligation at every point. Nothing
  is carried between points.
-/
import proofs.«152252_j88965952569844_1_alg».proof.Proof.Gen.KernelIdeal.Launch
import proofs.«152252_j88965952569844_1_alg».proof.Proof.Gen.KernelIdeal.Skeleton
import proofs.«152252_j88965952569844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the partial output's windows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    block index did not move since the last fetch: the x rows (window 0), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the W2a matrix (window 1, fetched once), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the b2 row (window 2, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev rx1 : Rect S512x4096 := Rect.unit (s := S512x4096) ![0, 0] S512x4096.size inb_S512x4096_S512x4096_0_0
abbrev rw1 : Rect S1000x4096 := Rect.unit (s := S1000x4096) ![0, 0] S1000x4096.size inb_S1000x4096_S1000x4096_0_0
abbrev rb1 : Rect S1x1000 := Rect.unit (s := S1x1000) ![0, 0] S1x1000.size inb_S1x1000_S1x1000_0_0
abbrev ro1 : Rect S512x1000 := Rect.unit (s := S512x1000) ![0, 0] S512x1000.size inb_S512x1000_S512x1000_0_0

/-- The partial output block the body leaves in the output's staging buffer: its one store, of the payload
    x W2a^T + b2 of the three loaded blocks. -/
def partial1 (x : Vec F S512x4096 .bf16) (w : Vec F S1000x4096 .bf16) (b : Vec F S1x1000 .f32) : Vec F S512x1000 .f32 :=
  View.canon [⟨ro1, k1_pay1 (View.ld x rx1) (View.ld w rw1) (View.ld b rb1)⟩]

/-- The one store covers the buffer. -/
theorem cover_partial1 (p : Vec F S512x1000 .f32) (y : S512x1000.Idx) :
    ∃ pc ∈ ([⟨ro1, p⟩] : List (View.Piece (Elt F) S512x1000 .f32)), y ∈ pc.1.set :=
  View.cover_of_tiled [⟨ro1, p⟩] S512x1000.size (by rfl) y

/-! ## The body's triple -/

set_option maxHeartbeats 1000000 in
/-- On whole staging memrefs, the inputs' at contents `x`, `w`, `b` and the output's at anything, the body runs to
    the continuation with the inputs as they were and the output's buffer at `partial1 x w b`. -/
theorem sound_layer2a (c : Dev nD) (E : Set ℕ) (i : grid1.Coords)
    (arg1 : Memref sig .tc .vmem S512x4096 .bf16) (harg1 : arg1.IsWhole) (arg2 : Memref sig .tc .vmem S1000x4096 .bf16) (harg2 : arg2.IsWhole)
    (arg3 : Memref sig .tc .vmem S1x1000 .f32) (harg3 : arg3.IsWhole) (arg4 : Memref sig .tc .vmem S512x1000 .f32) (harg4 : arg4.IsWhole)
    (x : Vec F S512x4096 .bf16) (w : Vec F S1000x4096 .bf16) (b : Vec F S1x1000 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (partial1 x w b)) -∗ K ⟨⟩))
      ⊢ wp frame (wpE (defs₀ (F := F)) Variants.none c none) E (cc1__layer2a_kernel i arg1 harg1 arg2 harg2 arg3 harg3 arg4 harg4) K := by
  simp only [cc1__layer2a_kernel_eq_skeleton]; unfold cc1__layer2a_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_partial1 _)

/-! ## The pipeline's proof data -/

/-- The proof data of the partial output's pipeline on core `c`: the arrays as the region finds them; after the body at
    point `t` each input's buffer still at its block and the output's at the partial output block of the three; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => partial1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = partial1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_layer2a c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Mlp

end
-- ==== Proof.Layer2bRuns.lean ====
/-
  The third pallas_call: the part of the output layer that pairs with the hidden activations, accumulated over the
  hidden axis. The grid is 8 x 8, the second coordinate k innermost; at point (i, k) the body holds rows
  [512 i, 512 i + 512) and columns [2048 k, 2048 k + 2048) of the hidden activations, the same columns of the bf16 copy
  of W2's last 16384 columns, and row block i of the partial output. A scratch block carries the running sum: at k = 0
  it is first set to the partial output block; at every k the product of the two blocks is added to it; at k = 7 it is
  copied into the output's staging buffer, which is written back there and only there.
  This module holds what the three cases of the body (k = 0, 0 < k < 7, k = 7) share, at ANY contents `V` of the
  core's buffers at the region's entry, and the body's run in each case; the pieces each run leaves in the scratch
  and in the output's buffer are found by the run itself.
-/
import proofs.«152252_j88965952569844_1_alg».proof.Proof.Gen.KernelIdeal.Launch
import proofs.«152252_j88965952569844_1_alg».proof.Proof.Gen.KernelIdeal.Skeleton
import proofs.«152252_j88965952569844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the accumulating layer's windows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the hidden
    activations' block (window 0), -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- the W2b block (window 1), -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and the partial output's row block (window 2, refetched only when i changes). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "k = 0", as the body computes it from the grid coordinates. -/
abbrev isFirst (i : grid2.Coords) : Prop := (Scalar.cmpi .ne (Scalar.extui (Scalar.cmpi .eq (BitVec.ofNat 32 (i 1).val) 0#32)) 0#32) = 1#1
/-- It holds at the points t with t % 8 = 0. -/
theorem isFirst_iff : ∀ t : Fin cfg2.N, isFirst (grid2.coords t) ↔ t.val % 8 = 0 :=
  (by decide +kernel : ∀ t : Fin grid2.N, isFirst (grid2.coords t) ↔ t.val % 8 = 0)

/-- "k = 7", as the body computes it. -/
abbrev isLast (i : grid2.Coords) : Prop := k2_cond2 i = 1#1
/-- It holds at the points t with t % 8 = 7. -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from k = 7 the body stores nothing into the output's staging buffer, and the pipeline does not write it back. -/
theorem idle2_3 : ∀ t : Fin cfg2.N, ¬isLast (grid2.coords t) → cfg2.idle 3 (grid2.coords t) = true := by decide +kernel
theorem noFlush2_3 : ∀ t : Fin cfg2.N, ¬isLast (grid2.coords t) → (cfg2.win 3).flush t = false := by decide +kernel
/-- At k = 7 it stores into it. -/
theorem live2_3 : ∀ t : Fin cfg2.N, isLast (grid2.coords t) → cfg2.idle 3 (grid2.coords t) = false := by decide +kernel

/-! ## The memrefs the body is called with -/

/-- One staging buffer of the output window, through which its contents are stated. -/
abbrev VO2 : View sig .tc .vmem S512x1000 .f32 := (Memref.whole cc2_stg3_0 : Memref sig .tc .vmem S512x1000 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1000 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1000 .f32 := win2_3.stage (cfg2.slots t 3)
abbrev hs2_3 (t : Fin cfg2.N) : (ms2_3 t).IsWhole := hstage2_3 ((cfg2.slots t 3).cast nbuf2_3)
/-- The scratch that carries the running sum: a whole scoped buffer of the kernel's own. -/
abbrev accM : Memref sig .tc .vmem S512x1000 .f32 := Memref.whole cc2_scratch0
abbrev accV : View sig .tc .vmem S512x1000 .f32 := accM.view

/-- The region invariant of a kernel that names nothing, with the accumulator split out of the scoped rest: the
    accumulator at some contents, every other scoped buffer unopened, the generator register at some state. -/
theorem PhiA2_eq (c : Dev nD) :
    (Pipeline.ΦA spec2 c : sProp 𝕄)
      = iprop(((∃ d, owns (c : Thread nD τ) accM fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [accM, owns_whole]
  rfl

/-! ## The body's run, case by case -/

set_option maxHeartbeats 1000000 in
/-- k = 0. The inputs' staging memrefs at their contents, the output's (idle here) at contents handed back
    untouched, the accumulator at anything: the body runs to the continuation with the inputs as they were and the
    accumulator holding its pieces written (`LS`: the partial output block stored, then the sum with the product). -/
noncomputable def runFirst (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i)
    (x0 : Vec F S512x2048 .bf16) (x1 : Vec F S1000x2048 .bf16) (x2 : Vec F S512x1000 .f32) :
    Σ' (L3 : List (View.Piece (Elt F) S512x1000 .f32)), { LS : List (View.Piece (Elt F) S512x1000 .f32) //
      ∀ (xi3 : Vec F S512x1000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨[], ?_, fun xi3 E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- 0 < k < 7. As above, with the accumulator at the contents `xs` the point before left: its one piece is the sum
    of `xs` with the product. -/
noncomputable def runMiddle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i)
    (x0 : Vec F S512x2048 .bf16) (x1 : Vec F S1000x2048 .bf16) (x2 : Vec F S512x1000 .f32) (xs : Vec F S512x1000 .f32) :
    Σ' (L3 : List (View.Piece (Elt F) S512x1000 .f32)), { LS : List (View.Piece (Elt F) S512x1000 .f32) //
      ∀ (xi3 : Vec F S512x1000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨[], ?_, fun xi3 E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- k = 7. As the middle case, and the output's staging memref, at anything, ends with its pieces written (`L3`: the
    accumulator's final contents). -/
noncomputable def runLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i)
    (x0 : Vec F S512x2048 .bf16) (x1 : Vec F S1000x2048 .bf16) (x2 : Vec F S512x1000 .f32) (xs : Vec F S512x1000 .f32) :
    Σ' (L3 : List (View.Piece (Elt F) S512x1000 .f32)), { LS : List (View.Piece (Elt F) S512x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__layer2b_kernel i arg2 harg2 arg3 harg3 arg4 harg4 arg5 harg5 arg6 harg6) K } := by
  refine ⟨?_, ?_, fun E K => ?run⟩
  case run =>
    simp only [cc2__layer2b_kernel_eq_skeleton]; unfold cc2__layer2b_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Mlp

end
-- ==== Proof.Layer2bRegion.lean ====
/-
  The third pallas_call, continued: what the accumulator and the output's staging buffer hold after each grid point, by
  recursion on the point (the case at the point, run at the point's memrefs and blocks, over what the point before
  left in the accumulator); the region invariant that carries the accumulator's contents from point to point; the
  pipeline's proof data; and the body obligation at every point, by cases on k = t % 8.
-/
import proofs.«152252_j88965952569844_1_alg».proof.Proof.Layer2bRuns

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the runs' pieces read back -/

/-- k = 0: the accumulator's two pieces tile it. -/
theorem accCover_first (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i) (x0 : Vec F S512x2048 .bf16) (x1 : Vec F S1000x2048 .bf16) (x2 : Vec F S512x1000 .f32) (y : S512x1000.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x1000.size (by sl_kernel_rfl) y
/-- What k = 0 leaves in the accumulator. -/
def accFirst (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i) (x0 : Vec F S512x2048 .bf16) (x1 : Vec F S1000x2048 .bf16) (x2 : Vec F S512x1000 .f32) : Vec F S512x1000 .f32 :=
  accV.read (Elt F) (accV.writes (Elt F) accV.junk (runFirst c i arg2 harg2 arg3 harg3 arg4 harg4 arg5 harg5 arg6 harg6 hc0 hc1 x0 x1 x2).2.1)

/-- 0 < k < 7: the accumulator's one piece tiles it. -/
theorem accCover_middle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i) (x0 : Vec F S512x2048 .bf16) (x1 : Vec F S1000x2048 .bf16) (x2 : Vec F S512x1000 .f32) (xs : Vec F S512x1000 .f32) (y : S512x1000.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S512x1000.size (by sl_kernel_rfl) y
/-- What 0 < k < 7 leaves in the accumulator, over what the point before left. -/
def accMiddle (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i) (x0 : Vec F S512x2048 .bf16) (x1 : Vec F S1000x2048 .bf16) (x2 : Vec F S512x1000 .f32) (xs : Vec F S512x1000 .f32) : Vec F S512x1000 .f32 :=
  accV.read (Elt F) (accV.writes (Elt F) accV.junk (runMiddle c i arg2 harg2 arg3 harg3 arg4 harg4 arg5 harg5 arg6 harg6 hc0 hc1 x0 x1 x2 xs).2.1)

/-- k = 7: the accumulator's piece, and the output buffer's piece, tile their buffers. -/
theorem accCover_last (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) (y : S512x1000.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S512x1000.size (by sl_kernel_rfl) y
theorem outCover_last (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) (y : S512x1000.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S512x1000.size (by sl_kernel_rfl) y
/-- What k = 7 leaves in the accumulator, -/
def accLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) : Vec F S512x1000 .f32 :=
  accV.read (Elt F) (accV.writes (Elt F) accV.junk (runLast c i arg2 harg2 arg3 harg3 arg4 harg4 arg5 harg5 arg6 harg6 hc0 hc1 x0 x1 x2 xs).2.1)
/-- and in the output's staging buffer. -/
def outLast (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) : Vec F S512x1000 .f32 :=
  VO2.read (Elt F) (VO2.writes (Elt F) VO2.junk (runLast c i arg2 harg2 arg3 harg3 arg4 harg4 arg5 harg5 arg6 harg6 hc0 hc1 x0 x1 x2 xs).1)

/-! ## Point by point -/

/-- After the body at position `n`: (what the output's staging buffer holds, what the accumulator holds). Away from
    k = 7 the first component is a placeholder nothing consults (the window is idle there and not written back). -/
def stateAt (c : Dev nD) : (n : ℕ) → n < cfg2.N → Vec F S512x1000 .f32 × Vec F S512x1000 .f32
  | 0, hn => (VO2.read (Elt F) VO2.junk, accFirst c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM (Memref.isWhole_whole _) ((isFirst_iff ⟨0, hn⟩).mpr (Nat.zero_mod _)) (fun h => (fun h => by (try dsimp only at h); omega) ((isLast_iff ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (VO2.read (Elt F) VO2.junk, accFirst c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) ((isFirst_iff ⟨n + 1, hn⟩).mpr h0) (fun h => h1 ((isLast_iff ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) ((isLast_iff ⟨n + 1, hn⟩).mpr h1) (iblk2 V c 0 ⟨n + 1, hn⟩) (iblk2 V c 1 ⟨n + 1, hn⟩) (iblk2 V c 2 ⟨n + 1, hn⟩) (stateAt c n (Nat.lt_of_succ_lt hn)).2,
         accLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) ((isLast_iff ⟨n + 1, hn⟩).mpr h1) (iblk2 V c 0 ⟨n + 1, hn⟩) (iblk2 V c 1 ⟨n + 1, hn⟩) (iblk2 V c 2 ⟨n + 1, hn⟩) (stateAt c n (Nat.lt_of_succ_lt hn)).2)
      else
        (VO2.read (Elt F) VO2.junk, accMiddle c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM (Memref.isWhole_whole _) (fun h => h0 ((isFirst_iff ⟨n + 1, hn⟩).mp h)) (fun h => h1 ((isLast_iff ⟨n + 1, hn⟩).mp h)) (iblk2 V c 0 ⟨n + 1, hn⟩) (iblk2 V c 1 ⟨n + 1, hn⟩) (iblk2 V c 2 ⟨n + 1, hn⟩) (stateAt c n (Nat.lt_of_succ_lt hn)).2)

/-- `stateAt` at a point with k = 0. -/
theorem stateAt_first (c : Dev nD) (t : Fin cfg2.N) (h0 : t.val % 8 = 0) (h1 : ¬t.val % 8 = 7) :
    stateAt V c t.val t.isLt = (VO2.read (Elt F) VO2.junk, accFirst c (grid2.coords t) (ms2_0 t) (hs2_0 t) (ms2_1 t) (hs2_1 t) (ms2_2 t) (hs2_2 t) (ms2_3 t) (hs2_3 t) accM (Memref.isWhole_whole _) ((isFirst_iff t).mpr h0) (fun h => h1 ((isLast_iff t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `stateAt` at a point with 0 < k < 7, over what the point before left. -/
theorem stateAt_middle (c : Dev nD) (t : Fin cfg2.N) (h0 : ¬t.val % 8 = 0) (h1 : ¬t.val % 8 = 7) :
    stateAt V c t.val t.isLt = (VO2.read (Elt F) VO2.junk, accMiddle c (grid2.coords t) (ms2_0 t) (hs2_0 t) (ms2_1 t) (hs2_1 t) (ms2_2 t) (hs2_2 t) (ms2_3 t) (hs2_3 t) accM (Memref.isWhole_whole _) (fun h => h0 ((isFirst_iff t).mp h)) (fun h => h1 ((isLast_iff t).mp h)) (iblk2 V c 0 t) (iblk2 V c 1 t) (iblk2 V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt` at a point with k = 7, over what the point before left. -/
theorem stateAt_last (c : Dev nD) (t : Fin cfg2.N) (h0 : ¬t.val % 8 = 0) (h1 : t.val % 8 = 7) :
    stateAt V c t.val t.isLt = (outLast c (grid2.coords t) (ms2_0 t) (hs2_0 t) (ms2_1 t) (hs2_1 t) (ms2_2 t) (hs2_2 t) (ms2_3 t) (hs2_3 t) accM (Memref.isWhole_whole _) (fun h => h0 ((isFirst_iff t).mp h)) ((isLast_iff t).mpr h1) (iblk2 V c 0 t) (iblk2 V c 1 t) (iblk2 V c 2 t) (stateAt V c (t.val - 1) (Nat.lt_of_le_of_lt (Nat.sub_le _ _) t.isLt)).2,
      accLast c (grid2.coords t) (ms2_0 t) (hs2_0 t) (ms2_1 t) (hs2_1 t) (ms2_2 t) (hs2_2 t) (ms2_3 t) (hs2_3 t) accM (Memref.isWhole_whole _) (fun h => h0 ((isFirst_iff t).mp h)) ((isLast_iff t).mpr h1) (iblk2 V c 0 t) (iblk2 V c 1 t) (iblk2 V c 2 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents carried from point to point -/

/-- Before position `n`: before the first point the accumulator is at anything (the invariant of a kernel that names
    nothing); afterwards it is at what the point before left, every other scoped buffer unopened and the generator
    register at some state. -/
def accInv (c : Dev nD) : (n : ℕ) → n ≤ cfg2.N → sProp 𝕄
  | 0, _ => Pipeline.ΦA spec2 c
  | n + 1, hn => iprop((owns (c : Thread nD τ) accM fullShare ((stateAt V c n hn).2)
      ∗ Pipeline.scopedRestBut (Ix := Unit) (Name := ℕ) (U := UR sig nD τ) (Lvl := ℕ) (Val := Elt F) spec2 c [cc2_scratch0])
      ∗ (∃ r, prngReg c r))

theorem accInv_zero (c : Dev nD) (n : ℕ) (h : n ≤ cfg2.N) (hz : n = 0) : accInv V c n h = Pipeline.ΦA spec2 c := by
  subst hz; rfl

theorem accInv_succ (c : Dev nD) (n : ℕ) (hn : n < cfg2.N) :
    accInv V c (n + 1) hn = iprop((owns (c : Thread nD τ) accM fullShare ((stateAt V c n hn).2)
      ∗ Pipeline.scopedRestBut (Ix := Unit) (Name := ℕ) (U := UR sig nD τ) (Lvl := ℕ) (Val := Elt F) spec2 c [cc2_scratch0])
      ∗ (∃ r, prngReg c r)) := rfl

theorem accInv_pos (c : Dev nD) (n : ℕ) (h : n ≤ cfg2.N) (hz : n ≠ 0) :
    accInv V c n h = iprop((owns (c : Thread nD τ) accM fullShare ((stateAt V c (n - 1) (by omega)).2)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The pipeline's proof data -/

/-- The proof data of the accumulating layer's pipeline on core `c`: the arrays as the region finds them; after the
    body at point `t` each input's buffer still at its block and the output's at `stateAt`'s first component; the
    invariant carries the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (stateAt V c t.val t.isLt).1
  Φ t := accInv V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem accInv_castSucc (c : Dev nD) (t : Fin cfg2.N) :
    (dat2 V c).Φ t.castSucc = accInv V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (stateAt V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [live2_0 t, after2_0]
theorem leaves2_1 (c : Dev nD) (t : Fin cfg2.N) :
    (dat2 V c).leavesExact 1 t = owns (c : Thread nD τ) (ms2_1 t) fullShare (iblk2 V c 1 t) := by
  unfold Dat.leavesExact; rw [live2_1 t, after2_1]
theorem leaves2_2 (c : Dev nD) (t : Fin cfg2.N) :
    (dat2 V c).leavesExact 2 t = owns (c : Thread nD τ) (ms2_2 t) fullShare (iblk2 V c 2 t) := by
  unfold Dat.leavesExact; rw [live2_2 t, after2_2]

set_option maxHeartbeats 4800000 in
/-- The body at any point, by cases on k: the inputs' memrefs hold their blocks; the invariant hands the body the
    accumulator at what the point before left (at anything before the first point) and takes it back at this point's
    contents; away from k = 7 the output's buffer goes back untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accInv V c (t.val + 1) t.isLt from rfl, accInv_succ]
  rw [leaves2_0, leaves2_1, leaves2_2]
  have hN : t.val < 64 := lt_of_lt_of_eq t.isLt (show cfg2.N = 64 from N_2)
  by_cases h0 : t.val % 8 = 0
  · have h1 : ¬t.val % 8 = 7 := by omega
    rw [Dat.leavesExact_idle (dat2 V c) 3 t (idle2_3 t (fun h => h1 ((isLast_iff t).mp h))) (noFlush2_3 t (fun h => h1 ((isLast_iff t).mp h)))]
    rw [stateAt_first V c t h0 h1]
    unfold accFirst; (try dsimp only)
    by_cases hz : t.val = 0
    · rw [accInv_castSucc V c t, accInv_zero V c _ _ hz, PhiA2_eq]
      iintro ⟨⟨⟨HS, Hrest⟩, Hg⟩, Ho, ⟨%d0, H0⟩, ⟨%d1, H1⟩, ⟨%d2, H2⟩, ⟨%d3, H3⟩⟩
      iapply ((runFirst c (grid2.coords t) _ _ _ _ _ _ _ _ _ _ ((isFirst_iff t).mpr h0) (fun h => h1 ((isLast_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runFirst c (grid2.coords t) _ _ _ _ _ _ _ _ _ _ ((isFirst_iff t).mpr h0) (fun h => h1 ((isLast_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [live2_3 t ((isLast_iff t).mpr h1)], after2_3]
      rw [stateAt_last V c t h0 h1]
      unfold outLast accLast; (try dsimp only)
      rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runLast c (grid2.coords t) _ _ _ _ _ _ _ _ _ _ (fun h => h0 ((isFirst_iff t).mp h)) ((isLast_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat2 V c) 3 t (idle2_3 t (fun h => h1 ((isLast_iff t).mp h))) (noFlush2_3 t (fun h => h1 ((isLast_iff t).mp h)))]
      rw [stateAt_middle V c t h0 h1]
      unfold accMiddle; (try dsimp only)
      rw [accInv_castSucc V c t, accInv_pos V c _ _ hz]
      iintro ⟨⟨⟨HS, Hrest⟩, Hg⟩, Ho, ⟨%d0, H0⟩, ⟨%d1, H1⟩, ⟨%d2, H2⟩, ⟨%d3, H3⟩⟩
      iapply ((runMiddle c (grid2.coords t) _ _ _ _ _ _ _ _ _ _ (fun h => h0 ((isFirst_iff t).mp h)) (fun h => h1 ((isLast_iff t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCover_middle c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem accInv_in (c : Dev nD) : Pipeline.ΦA spec2 c ⊢ (dat2 V c).Φ 0 := by
  rw [show (dat2 V c).Φ 0 = accInv V c 0 (Nat.zero_le _) from rfl, accInv_zero V c 0 _ rfl]
  try exact Idealize.SL.BI.Entails.refl _

/-- After any point but the first position the invariant gives that back: the accumulator's contents are forgotten. -/
theorem accInv_out (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = accInv V c (Fin.last cfg2.N).val (Nat.le_of_lt_succ (Fin.last cfg2.N).isLt) from rfl,
    accInv_pos V c _ _ ht, PhiA2_eq]
  iintro ⟨⟨HS, Hrest⟩, Hg⟩
  isplitl [HS Hrest]
  · isplitl [HS]
    · iexists _; iexact HS
    iexact Hrest
  iexact Hg

end Cert.KernelIdeal.Mlp

end
-- ==== Proof.MainRun.lean ====
/-
  @main from the launch to the return: the host operations (the bf16 copies of x and W1, the two column ranges of W2
  and their bf16 copies, b1 and b2 laid out as rows), then the three pallas_calls in order. The contents of the core's
  unscoped buffers at each boundary are a fold from the launch memory: after the host operations; after each region,
  that region's arrays at what its write-backs leave and every other buffer as it was. Each region is a segment entered
  from the boundary before it and left at the one after it; one launch over the four segments gives: every weakly fair
  execution terminates, nothing faults, and every unscoped buffer ends at the last boundary's contents. Read at the
  arguments that is the frame; read at the result buffer it is what the third region's write-backs leave.
-/
import proofs.«152252_j88965952569844_1_alg».proof.Proof.Layer1Region
import proofs.«152252_j88965952569844_1_alg».proof.Proof.Layer2aRegion
import proofs.«152252_j88965952569844_1_alg».proof.Proof.Layer2bRegion

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the host operations: the first region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the hidden layer's region. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the partial output's region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the accumulating region: the return. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = E4 m ρ c (Pipeline.arrRef spec2 w) :=
  (B4_arr m ρ c w).symm
theorem hrest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-! ## The arguments end as launched -/

/-- `main_arg0` ends as launched: no host operation writes it and no region has it as an output. -/
theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and no region has it as an output. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and no region has it as an output. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and no region has it as an output. -/
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and no region has it as an output. -/
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result buffer ends at what the accumulating region's write-backs leave. -/
theorem B4_result (c : Dev nD) : B4 m ρ c (Proc.devRef .tc main_v10) = (dat2 (E3 m ρ) c).arrAt 3 cfg2.N :=
  B4_arr m ρ c 3

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev noVariants : Variants := Variants.none
/-- No core owes another anything. -/
abbrev noDues : GSem nD τ sig → Finset Unit := fun _ => ∅
abbrev noLevel : GSem nD τ sig → Unit → ℕ := fun _ _ => 0
/-- Beside the buffers: the generator register at some state, and the core owing nothing. -/
abbrev riding (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem hostOps0_allocates_nothing : (hostOps0 : List (HloOp τ sig (Elt F))).Forall fun op => op.fresh = ∅ := by
  simp only [List.Forall]; repeat' constructor
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev atReturn (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The hidden layer's region: entered with every unscoped buffer at `B1`, left at `B2`. -/
def region0 : Pipeline.RegionSeg (pcfgs (F := F)) adm (pdats m ρ) () defs₀ noVariants noDues noLevel 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noDues noLevel 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The partial output's region: entered at `B2`, left at `B3`. -/
def region1 : Pipeline.RegionSeg (pcfgs (F := F)) adm (pdats m ρ) () defs₀ noVariants noDues noLevel 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noDues noLevel 1 fun _ _ => rfl
  pre c := iprop(StableHlo.held (c : Thread nD τ) (Pipeline.ucRefs τ sig) (B2 m ρ c) ∗ riding c)
  post c := iprop(StableHlo.held (c : Thread nD τ) (Pipeline.ucRefs τ sig) (B3 m ρ c) ∗ riding c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered at `B3`, left at `B4`. Its invariant starts as the scoped rest with the
    accumulator at anything and ends giving that back. -/
def region2 : Pipeline.RegionSeg (pcfgs (F := F)) adm (pdats m ρ) () defs₀ noVariants noDues noLevel 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noDues noLevel 2 fun _ _ => rfl
  pre c := iprop(StableHlo.held (c : Thread nD τ) (Pipeline.ucRefs τ sig) (B3 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from accInv_out (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segments : List (Pipeline.Seg (pcfgs (F := F)) adm (pdats m ρ) () defs₀ noVariants noDues noLevel) :=
  [ .host (hostSeg hostOps0 hostOps0_sub hostOps0_allocates_nothing (B0 m ρ)),
    .region (region0 m ρ),
    .region (region1 m ρ),
    .region (region2 m ρ) ]
theorem main_is_segments (c : Dev nD) : main (F := F) c = Pipeline.Seg.run (segments m ρ) := (main_chain c).trans (by chain_rfl)

set_option backward.isDefEq.respectTransparency.types false in
/-- THE RUN: from any memory with zero counters every weakly fair execution of @main terminates, nothing faulting, and
    every unscoped buffer of every core ends at the last boundary's contents. -/
theorem run_to_return : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVariants noDues noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atReturn m ρ)
    (hch := ⟨fun _ => .rfl, fun _ => .rfl, fun _ => .rfl, fun _ => .rfl, fun _ => .rfl⟩)
    (hinit := by
      refine Pipeline.initEach noDues noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME, and the result buffer's final contents: the arguments end as launched, the result at what the third
    region's write-backs leave. -/
theorem run_main : θ_run defs (onTc (τ := τ) (main (F := F))) ⟨m, fun _ => 0, ρ⟩ (fun r => ∀ c : Dev nD,
      r.2.mem ((c.tc : Thread nD τ).loc main_v10) = (dat2 (E3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
    ⟨(h c _ (mem_unscoped main_v10 (by decide))).trans (B4_result m ρ c),
     (h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c)⟩)
    (run_to_return m ρ)

end Cert.KernelIdeal.Mlp

end
-- ==== Proof.MlpSpec.lean ====
/-
  What the three pallas_calls compute, over the extended reals, as functions of matrices given index by index.
  No program is imported: the shapes are literal, an index is built from its two coordinates.

    hidden   : max (x W1^T + b1, 0)                       rows of x against rows of W1
    partialOut : x A^T + b2                               A the first 4096 columns of W2
    accum    : the partial output plus, one block of 2048 columns after the other (8 blocks, in order),
               the products of the hidden activations with B, the last 16384 columns of W2
    mlp      : their composition, the kernel's result as one function of the five arguments.
-/
import Idealize.ShloMosaic.PureOps.Ideal
import Idealize.ShloMosaic.Lib.ValueIdx

noncomputable section

open scoped BigOperators

namespace Cert.MlpSpec

open Idealize.ShloMosaic Idealize.ShloMosaic.ValueIdx

/-- A matrix of extended reals with `r` rows and `c` columns, given index by index. -/
abbrev Mat (r c : Nat) : Type := (⟨2, ![r, c]⟩ : Shape).Idx → EReal
/-- A vector of extended reals of length `n`. -/
abbrev Vec1 (n : Nat) : Type := (⟨1, ![n]⟩ : Shape).Idx → EReal

/-- The float word of +0.0 read as an extended real (it is 0; nothing here needs to know). -/
abbrev zeroW : EReal := Ideal.ofBits .f32 0x00000000#32

/-- Entry (p, q) of A B^T: row p of A against row q of B. -/
def dotRows {r s n : Nat} (A : Mat r n) (B : Mat s n) (p : Fin r) (q : Fin s) : EReal :=
  ∑ k : Fin n, A (ix2 p k) * B (ix2 q k)

/-! ## The hidden layer -/

/-- max (x W1^T + b1, 0) at row p, unit h; b1 is given as one row. -/
def hiddenAt (x : Mat 4096 4096) (w1 : Mat 16384 4096) (b1 : Mat 1 16384) (p : Fin 4096) (h : Fin 16384) : EReal :=
  max (dotRows x w1 p h + b1 (ix2 0 h)) zeroW

def hidden (x : Mat 4096 4096) (w1 : Mat 16384 4096) (b1 : Mat 1 16384) : Mat 4096 16384 :=
  fun i => hiddenAt x w1 b1 ⟨(i 0).val, (i 0).isLt⟩ ⟨(i 1).val, (i 1).isLt⟩

theorem hidden_apply (x : Mat 4096 4096) (w1 : Mat 16384 4096) (b1 : Mat 1 16384) (p : Fin 4096) (h : Fin 16384) :
    hidden x w1 b1 (ix2 p h) = hiddenAt x w1 b1 p h := rfl

/-! ## The part of the output layer that pairs with x -/

/-- x A^T + b2 at row p, output o; b2 is given as one row. -/
def partialAt (x : Mat 4096 4096) (a : Mat 1000 4096) (b2 : Mat 1 1000) (p : Fin 4096) (o : Fin 1000) : EReal :=
  dotRows x a p o + b2 (ix2 0 o)

def partialOut (x : Mat 4096 4096) (a : Mat 1000 4096) (b2 : Mat 1 1000) : Mat 4096 1000 :=
  fun i => partialAt x a b2 ⟨(i 0).val, (i 0).isLt⟩ ⟨(i 1).val, (i 1).isLt⟩

theorem partialOut_apply (x : Mat 4096 4096) (a : Mat 1000 4096) (b2 : Mat 1 1000) (p : Fin 4096) (o : Fin 1000) :
    partialOut x a b2 (ix2 p o) = partialAt x a b2 p o := rfl

/-! ## The part that pairs with the hidden activations, accumulated block by block -/

/-- Column 2048 k + j of a 16384-column matrix. -/
abbrev col (k : Fin 8) (j : Fin 2048) : Fin 16384 := ⟨2048 * k.val + j.val, by have := k.isLt; have := j.isLt; omega⟩

/-- Block k's contribution at (p, o): the hidden activations' columns [2048 k, 2048 k + 2048) against B's. -/
def blockDot (hd : Mat 4096 16384) (b : Mat 1000 16384) (p : Fin 4096) (o : Fin 1000) (k : Fin 8) : EReal :=
  ∑ j : Fin 2048, hd (ix2 p (col k j)) * b (ix2 o (col k j))

/-- The running sum at (p, o) after block k: the partial output, then the blocks' contributions added in order. -/
def accUpTo (hd : Mat 4096 16384) (b : Mat 1000 16384) (outp : Mat 4096 1000) (p : Fin 4096) (o : Fin 1000) : (k : ℕ) → k < 8 → EReal
  | 0, h => outp (ix2 p o) + blockDot hd b p o ⟨0, h⟩
  | k + 1, h => accUpTo hd b outp p o k (Nat.lt_of_succ_lt h) + blockDot hd b p o ⟨k + 1, h⟩

theorem accUpTo_zero (hd : Mat 4096 16384) (b : Mat 1000 16384) (outp : Mat 4096 1000) (p : Fin 4096) (o : Fin 1000) (h : 0 < 8) :
    accUpTo hd b outp p o 0 h = outp (ix2 p o) + blockDot hd b p o ⟨0, h⟩ := rfl
theorem accUpTo_succ (hd : Mat 4096 16384) (b : Mat 1000 16384) (outp : Mat 4096 1000) (p : Fin 4096) (o : Fin 1000) (k : ℕ) (h : k + 1 < 8) :
    accUpTo hd b outp p o (k + 1) h = accUpTo hd b outp p o k (Nat.lt_of_succ_lt h) + blockDot hd b p o ⟨k + 1, h⟩ := rfl

/-- After the last block. -/
def accumAt (hd : Mat 4096 16384) (b : Mat 1000 16384) (outp : Mat 4096 1000) (p : Fin 4096) (o : Fin 1000) : EReal :=
  accUpTo hd b outp p o 7 (by decide)

def accum (hd : Mat 4096 16384) (b : Mat 1000 16384) (outp : Mat 4096 1000) : Mat 4096 1000 :=
  fun i => accumAt hd b outp ⟨(i 0).val, (i 0).isLt⟩ ⟨(i 1).val, (i 1).isLt⟩

theorem accum_apply (hd : Mat 4096 16384) (b : Mat 1000 16384) (outp : Mat 4096 1000) (p : Fin 4096) (o : Fin 1000) :
    accum hd b outp (ix2 p o) = accumAt hd b outp p o := rfl

/-! ## The composition -/

/-- A vector laid out as one row. -/
def asRow {n : Nat} (v : Vec1 n) : Mat 1 n := fun i => v (ix1 ⟨(i 1).val, (i 1).isLt⟩)
/-- The first 4096 columns of W2, -/
def firstCols (w2 : Mat 1000 20480) : Mat 1000 4096 :=
  fun i => w2 (ix2 ⟨(i 0).val, (i 0).isLt⟩ ⟨(i 1).val, by have h : (i 1).val < 4096 := (i 1).isLt; omega⟩)
/-- and the last 16384. -/
def lastCols (w2 : Mat 1000 20480) : Mat 1000 16384 :=
  fun i => w2 (ix2 ⟨(i 0).val, (i 0).isLt⟩ ⟨4096 + (i 1).val, by have h : (i 1).val < 16384 := (i 1).isLt; omega⟩)

/-- The kernel's result as one function of the five arguments. -/
def mlp (x : Mat 4096 4096) (w1 : Mat 16384 4096) (b1 : Vec1 16384) (w2 : Mat 1000 20480) (b2 : Vec1 1000) : Mat 4096 1000 :=
  accum (hidden x w1 (asRow b1)) (lastCols w2) (partialOut x (firstCols w2) (asRow b2))

end Cert.MlpSpec

end
-- ==== Proof.Layer1Value.lean ====
/-
  The hidden layer's region, read as values over the extended reals: the array its write-backs leave is
  max (x W1^T + b1, 0) of the three arrays the region finds, index by index. The body's payload at an index of its
  block is the contraction of a row of the x block with a row of the W1 block, plus the b1 entry, against zero; block
  (i, j) of the grid reads rows 1024 i .. of x, rows 512 j .. of W1 and columns 512 j .. of b1 and is written back to
  rows 1024 i .., columns 512 j .. of the result; the 4 x 32 blocks tile the result.
-/
import proofs.«152252_j88965952569844_1_alg».proof.Proof.Layer1Region
import proofs.«152252_j88965952569844_1_alg».proof.Proof.MlpSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mlp

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## The contraction: rows of the left block against rows of the right block -/

theorem lhs_hidden_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_hidden_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_hidden_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_hidden_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The matrix unit's product into a zero accumulator, at (p, q): row p of the left block against row q of the right. -/
theorem hidden_matmul_apply (x : FVec Ideal S1024x4096 .bf16) (w : FVec Ideal S512x4096 .bf16) (p : Fin 1024) (q : Fin 512) :
    matmul dot_S1024x4096_S512x4096_S1024x512_1_1_0_0_n_n none x w (constant (F := Ideal) S1024x512 .f32 0x00000000#32) (ix2 p q)
      = ∑ k : Fin 4096, x (ix2 p k) * w (ix2 q k) := by
  simp only [matmul]
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k := funext fun a => Fin.ext (by
    match a with
    | ⟨0, _⟩ => exact lhs_hidden_0 _ _
    | ⟨1, _⟩ => exact (lhs_hidden_1 _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k := funext fun a => Fin.ext (by
    match a with
    | ⟨0, _⟩ => exact rhs_hidden_0 _ _
    | ⟨1, _⟩ => exact (rhs_hidden_1 _ _).trans hk)
  rw [el, er]

/-- The b1 row broadcast down the block's rows, at (p, q): its entry q. -/
theorem hidden_bias_apply (b : FVec Ideal S1x512 .f32) (p : Fin 1024) (q : Fin 512) :
    broadcastTo S1024x512 b broadcasts_S1x512_S1024x512 (ix2 p q) = b (ix2 0 q) :=
  broadcastTo_apply b broadcasts_S1x512_S1024x512 (ix2 p q) (ix2 0 q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's payload at (p, q) of its block. -/
theorem hidden_payload_apply (x : Vec Ideal S1024x4096 .bf16) (w : Vec Ideal S512x4096 .bf16) (b : Vec Ideal S1x512 .f32) (p : Fin 1024) (q : Fin 512) :
    k0_pay1 (F := Ideal) x w b (ix2 p q) = max ((∑ k : Fin 4096, x (ix2 p k) * w (ix2 q k)) + b (ix2 0 q)) Cert.MlpSpec.zeroW := by
  unfold k0_pay1
  simp only [shapeCast_self]
  show max (matmul dot_S1024x4096_S512x4096_S1024x512_1_1_0_0_n_n none x w (constant (F := Ideal) S1024x512 .f32 0x00000000#32) (ix2 p q)
      + broadcastTo S1024x512 b broadcasts_S1x512_S1024x512 (ix2 p q)) _ = _
  rw [hidden_matmul_apply, hidden_bias_apply]
  rfl

/-- The body's one store covers its buffer, so what it leaves is the payload of the whole loaded blocks. -/
theorem hidden0_eq (x : Vec Ideal S1024x4096 .bf16) (w : Vec Ideal S512x4096 .bf16) (b : Vec Ideal S1x512 .f32) :
    hidden0 x w b = k0_pay1 x w b := by
  unfold hidden0
  rw [View.canon_unit_zero zero_offsets]
  simp only [View.ld_unit_zero (S := S1024x4096) zero_offsets, View.ld_unit_zero (S := S512x4096) zero_offsets, View.ld_unit_zero (S := S1x512) zero_offsets]

/-! ## Where each window's block sits in its array -/

/-- The printed index maps over the 4 x 32 grid (the second coordinate innermost: point t is (t / 32, t % 32)). -/
theorem hidden_index_maps : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32
    ∧ win0_3.index t (0 : Fin 2) = t.val / 32 ∧ win0_3.index t (1 : Fin 2) = t.val % 32 :=
  (by decide +kernel : ∀ t : Fin grid0.N, _)

/-- Every block of the result is some point's. -/
theorem hidden_blocks_onto : ∀ (q0 : Fin 4) (q1 : Fin 32), ∃ t : Fin cfg0.N, win0_3.index t = ![q0.val, q1.val] :=
  (by decide +kernel : ∀ (q0 : Fin 4) (q1 : Fin 32), ∃ t : Fin grid0.N, win0_3.index t = ![q0.val, q1.val])

/-- The x block at point t, at (a, k): row 1024 (t / 32) + a of x. -/
theorem hidden_xblk_apply (c : Dev nD) (t : Fin cfg0.N) (a : Fin 1024) (k : Fin 4096) (r : Fin 4096) (hr : r.val = 1024 * (t.val / 32) + a.val) :
    (iblk0 V c 0 t : Vec Ideal S1024x4096 .bf16) (ix2 a k) = (V c main_v0 : S4096x4096.Idx → Elt Ideal .bf16) (ix2 r k) := by
  obtain ⟨e0, e1, -⟩ := hidden_index_maps t
  unfold iblk0
  rw [View.read_apply]
  show V c main_v0 _ = V c main_v0 _
  congr 1
  funext d
  apply Fin.ext
  match d with
  | ⟨0, _⟩ => show win0_0.index t (0 : Fin 2) * 1024 + 1 * a.val = r.val; rw [e0, hr]; omega
  | ⟨1, _⟩ => show win0_0.index t (1 : Fin 2) * 4096 + 1 * k.val = k.val; rw [e1]; omega

/-- The W1 block at point t, at (b, k): row 512 (t % 32) + b of W1. -/
theorem hidden_wblk_apply (c : Dev nD) (t : Fin cfg0.N) (b : Fin 512) (k : Fin 4096) (h : Fin 16384) (hh : h.val = 512 * (t.val % 32) + b.val) :
    (iblk0 V c 1 t : Vec Ideal S512x4096 .bf16) (ix2 b k) = (V c main_v1 : S16384x4096.Idx → Elt Ideal .bf16) (ix2 h k) := by
  obtain ⟨-, -, e0, e1, -⟩ := hidden_index_maps t
  unfold iblk0
  rw [View.read_apply]
  show V c main_v1 _ = V c main_v1 _
  congr 1
  funext d
  apply Fin.ext
  match d with
  | ⟨0, _⟩ => show win0_1.index t (0 : Fin 2) * 512 + 1 * b.val = h.val; rw [e0, hh]; omega
  | ⟨1, _⟩ => show win0_1.index t (1 : Fin 2) * 4096 + 1 * k.val = k.val; rw [e1]; omega

/-- The b1 block at point t, at (0, b): entry 512 (t % 32) + b of b1 as a row. -/
theorem hidden_bblk_apply (c : Dev nD) (t : Fin cfg0.N) (b : Fin 512) (h : Fin 16384) (hh : h.val = 512 * (t.val % 32) + b.val) :
    (iblk0 V c 2 t : Vec Ideal S1x512 .f32) (ix2 0 b) = (V c main_v6 : S1x16384.Idx → Elt Ideal .f32) (ix2 0 h) := by
  obtain ⟨-, -, -, -, e0, e1, -⟩ := hidden_index_maps t
  unfold iblk0
  rw [View.read_apply]
  show V c main_v6 _ = V c main_v6 _
  congr 1
  funext d
  apply Fin.ext
  match d with
  | ⟨0, _⟩ => show win0_2.index t (0 : Fin 2) * 1 + 1 * 0 = 0; rw [e0]
  | ⟨1, _⟩ => show win0_2.index t (1 : Fin 2) * 512 + 1 * b.val = h.val; rw [e1, hh]; omega

/-! ## What a point writes back, and the array after the run -/

/-- Point t writes back block t of the hidden activations of the arrays the region finds. -/
theorem hidden_flushed (c : Dev nD) (t : Fin cfg0.N) :
    (dat0 (F := Ideal) V c).flushed 3 t
      = ((cfg0.win 3).blk t).view.read (Elt Ideal) (Cert.MlpSpec.hidden (V c main_v0) (V c main_v1) (V c main_v6)) := by
  show (cfg0.win 3).cut (grid0.coords t) ((dat0 V c).after 3 t) = _
  rw [after0_3, hidden0_eq]
  obtain ⟨-, -, -, -, -, -, e0, e1⟩ := hidden_index_maps t
  funext j
  obtain ⟨a, b, rfl⟩ : ∃ (a : Fin 1024) (b : Fin 512), j = ix2 a b := ⟨j 0, j 1, eq_ix2 j⟩
  have hr : 1024 * (t.val / 32) + a.val < 4096 := by
    have := t.isLt; have hN : cfg0.N = 128 := N_0; have := a.isLt; omega
  have hh : 512 * (t.val % 32) + b.val < 16384 := by have := b.isLt; omega
  have hemb : ((cfg0.win 3).blk t).view.emb (ix2 a b)
      = (ix2 (⟨1024 * (t.val / 32) + a.val, hr⟩ : Fin 4096) (⟨512 * (t.val % 32) + b.val, hh⟩ : Fin 16384) : S4096x16384.Idx) := by
    funext d
    apply Fin.ext
    match d with
    | ⟨0, _⟩ => show win0_3.index t (0 : Fin 2) * 1024 + 1 * a.val = 1024 * (t.val / 32) + a.val; rw [e0]; omega
    | ⟨1, _⟩ => show win0_3.index t (1 : Fin 2) * 512 + 1 * b.val = 512 * (t.val % 32) + b.val; rw [e1]; omega
  show k0_pay1 (F := Ideal) (iblk0 V c 0 t) (iblk0 V c 1 t) (iblk0 V c 2 t) (ix2 a b)
    = Cert.MlpSpec.hidden (V c main_v0) (V c main_v1) (V c main_v6) (((cfg0.win 3).blk t).view.emb (ix2 a b))
  rw [hemb, Cert.MlpSpec.hidden_apply, hidden_payload_apply]
  unfold Cert.MlpSpec.hiddenAt Cert.MlpSpec.dotRows
  rw [hidden_bblk_apply V c t b ⟨512 * (t.val % 32) + b.val, hh⟩ rfl]
  refine congrArg (fun s => max (s + _) _) (Finset.sum_congr rfl fun k _ => ?_)
  rw [hidden_xblk_apply V c t a k ⟨1024 * (t.val / 32) + a.val, hr⟩ rfl, hidden_wblk_apply V c t b k ⟨512 * (t.val % 32) + b.val, hh⟩ rfl]

/-- An index of the result is in point t's block iff each coordinate is in the block's range on its axis. -/
theorem hidden_mem_blk (t : Fin cfg0.N) (i : S4096x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v8).slice (win0_3.rect t)).set ↔ _
  rw [View.set_slice_whole, Rect.mem_set_unit]
  exact Iff.rfl

/-- Every index of the result lies in the block of the point (row / 1024, column / 512), which is written back. -/
theorem hidden_cover (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := hidden_blocks_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [hidden_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY the hidden layer's region leaves: max (x W1^T + b1, 0) of the arrays it found. -/
theorem hidden_final (c : Dev nD) :
    (dat0 (F := Ideal) V c).arrAt 3 cfg0.N = Cert.MlpSpec.hidden (V c main_v0) (V c main_v1) (V c main_v6) :=
  (dat0 (F := Ideal) V c).arrAt_eq_of_cover 3 (Cert.MlpSpec.hidden (V c main_v0) (V c main_v1) (V c main_v6))
    (fun t _ => hidden_flushed V c t) hidden_cover

end Cert.KernelIdeal.Mlp

end
-- ==== Proof.Layer2aValue.lean ====
/-
  The partial output's region, read as values over the extended reals: the array its write-backs leave is x A^T + b2 of
  the three arrays the region finds (A the bf16 copy of W2's first 4096 columns, b2 as a row), index by index. Point i of
  the 8-point grid reads rows 512 i .. of x, all of A and all of b2, and is written back to rows 512 i .. of the result;
  the 8 row blocks tile it.
-/
import proofs.«152252_j88965952569844_1_alg».proof.Proof.Layer2aRegion
import proofs.«152252_j88965952569844_1_alg».proof.Proof.MlpSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mlp

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-! ## The contraction: rows of the x block against rows of A -/

theorem lhs_partial_0 (i : S512x1000.Idx) (q : dot_S512x4096_S1000x4096_S512x1000_1_1_0_0_n_n.contr.Idx) :
    (dot_S512x4096_S1000x4096_S512x1000_1_1_0_0_n_n.lhsIdx i q 0).val = (i 0).val := by
  unfold DotDims.lhsIdx
  rw [dif_neg (show ¬(0 : Fin S512x4096.rank) ∈ dot_S512x4096_S1000x4096_S512x1000_1_1_0_0_n_n.lhsBatch by decide), dif_pos (show (0 : Fin S512x4096.rank) ∈ dot_S512x4096_S1000x4096_S512x1000_1_1_0_0_n_n.lhsNonContracting by decide)]
  rfl
theorem lhs_partial_1 (i : S512x1000.Idx) (q : dot_S512x4096_S1000x4096_S512x1000_1_1_0_0_n_n.contr.Idx) :
    (dot_S512x4096_S1000x4096_S512x1000_1_1_0_0_n_n.lhsIdx i q 1).val = (q ⟨0, by decide⟩).val :=
  dot_S512x4096_S1000x4096_S512x1000_1_1_0_0_n_n.lhsIdx_val_of_single rfl i q
theorem rhs_partial_0 (i : S512x1000.Idx) (q : dot_S512x4096_S1000x4096_S512x1000_1_1_0_0_n_n.contr.Idx) :
    (dot_S512x4096_S1000x4096_S512x1000_1_1_0_0_n_n.rhsIdx i q 0).val = (i 1).val := by
  unfold DotDims.rhsIdx
  rw [dif_neg (show ¬(0 : Fin S1000x4096.rank) ∈ dot_S512x4096_S1000x4096_S512x1000_1_1_0_0_n_n.rhsBatch by decide), dif_pos (show (0 : Fin S1000x4096.rank) ∈ dot_S512x4096_S1000x4096_S512x1000_1_1_0_0_n_n.rhsNonContracting by decide)]
  rfl
theorem rhs_partial_1 (i : S512x1000.Idx) (q : dot_S512x4096_S1000x4096_S512x1000_1_1_0_0_n_n.contr.Idx) :
    (dot_S512x4096_S1000x4096_S512x1000_1_1_0_0_n_n.rhsIdx i q 1).val = (q ⟨0, by decide⟩).val :=
  dot_S512x4096_S1000x4096_S512x1000_1_1_0_0_n_n.rhsIdx_val_of_single rfl i q

/-- The matrix unit's product into a zero accumulator, at (p, q): row p of the x block against row q of A. -/
theorem partial_matmul_apply (x : FVec Ideal S512x4096 .bf16) (w : FVec Ideal S1000x4096 .bf16) (p : Fin 512) (q : Fin 1000) :
    matmul dot_S512x4096_S1000x4096_S512x1000_1_1_0_0_n_n none x w (constant (F := Ideal) S512x1000 .f32 0x00000000#32) (ix2 p q)
      = ∑ k : Fin 4096, x (ix2 p k) * w (ix2 q k) := by
  simp only [matmul]
  rw [Ideal.matmul_constant_zero_apply, ← Equiv.sum_comp (ValueIdx.contrEquiv1 dot_S512x4096_S1000x4096_S512x1000_1_1_0_0_n_n 4096 rfl rfl).symm]
  refine Finset.sum_congr rfl fun k _ => ?_
  have hk := ValueIdx.contrEquiv1_symm_val dot_S512x4096_S1000x4096_S512x1000_1_1_0_0_n_n 4096 rfl rfl k
  have el : dot_S512x4096_S1000x4096_S512x1000_1_1_0_0_n_n.lhsIdx (ix2 p q) ((ValueIdx.contrEquiv1 dot_S512x4096_S1000x4096_S512x1000_1_1_0_0_n_n 4096 rfl rfl).symm k) = ix2 p k := funext fun a => Fin.ext (by
    match a with
    | ⟨0, _⟩ => exact lhs_partial_0 _ _
    | ⟨1, _⟩ => exact (lhs_partial_1 _ _).trans hk)
  have er : dot_S512x4096_S1000x4096_S512x1000_1_1_0_0_n_n.rhsIdx (ix2 p q) ((ValueIdx.contrEquiv1 dot_S512x4096_S1000x4096_S512x1000_1_1_0_0_n_n 4096 rfl rfl).symm k) = ix2 q k := funext fun a => Fin.ext (by
    match a with
    | ⟨0, _⟩ => exact rhs_partial_0 _ _
    | ⟨1, _⟩ => exact (rhs_partial_1 _ _).trans hk)
  rw [el, er]

/-- The b2 row broadcast down the block's rows, at (p, q): its entry q. -/
theorem partial_bias_apply (b : FVec Ideal S1x1000 .f32) (p : Fin 512) (q : Fin 1000) :
    broadcastTo S512x1000 b broadcasts_S1x1000_S512x1000 (ix2 p q) = b (ix2 0 q) :=
  broadcastTo_apply b broadcasts_S1x1000_S512x1000 (ix2 p q) (ix2 0 q) (fun a => match a with
    | ⟨0, _⟩ => by show 0 = if (1 : Nat) = 1 then 0 else _; rw [if_pos rfl]
    | ⟨1, _⟩ => by show q.val = if (1000 : Nat) = 1 then 0 else q.val; rw [if_neg (by decide)])

/-- The body's payload at (p, q) of its block. -/
theorem partial_payload_apply (x : Vec Ideal S512x4096 .bf16) (w : Vec Ideal S1000x4096 .bf16) (b : Vec Ideal S1x1000 .f32) (p : Fin 512) (q : Fin 1000) :
    k1_pay1 (F := Ideal) x w b (ix2 p q) = (∑ k : Fin 4096, x (ix2 p k) * w (ix2 q k)) + b (ix2 0 q) := by
  unfold k1_pay1
  simp only [shapeCast_self]
  show matmul dot_S512x4096_S1000x4096_S512x1000_1_1_0_0_n_n none x w (constant (F := Ideal) S512x1000 .f32 0x00000000#32) (ix2 p q)
      + broadcastTo S512x1000 b broadcasts_S1x1000_S512x1000 (ix2 p q) = _
  rw [partial_matmul_apply, partial_bias_apply]

/-- The body's one store covers its buffer, so what it leaves is the payload of the whole loaded blocks. -/
theorem partial1_eq (x : Vec Ideal S512x4096 .bf16) (w : Vec Ideal S1000x4096 .bf16) (b : Vec Ideal S1x1000 .f32) :
    partial1 x w b = k1_pay1 x w b := by
  unfold partial1
  rw [View.canon_unit_zero zero_offsets1]
  simp only [View.ld_unit_zero (S := S512x4096) zero_offsets1, View.ld_unit_zero (S := S1000x4096) zero_offsets1, View.ld_unit_zero (S := S1x1000) zero_offsets1]

/-! ## Where each window's block sits in its array -/

/-- The printed index maps over the 8 points: only the x rows and the result's rows move. -/
theorem partial_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block of the result is some point's. -/
theorem partial_blocks_onto : ∀ (q0 : Fin 8), ∃ t : Fin cfg1.N, win1_3.index t = ![q0.val, 0] :=
  (by decide +kernel : ∀ (q0 : Fin 8), ∃ t : Fin grid1.N, win1_3.index t = ![q0.val, 0])

/-- The x block at point t, at (a, k): row 512 t + a of x. -/
theorem partial_xblk_apply (c : Dev nD) (t : Fin cfg1.N) (a : Fin 512) (k : Fin 4096) (r : Fin 4096) (hr : r.val = 512 * t.val + a.val) :
    (iblk1 V c 0 t : Vec Ideal S512x4096 .bf16) (ix2 a k) = (V c main_v0 : S4096x4096.Idx → Elt Ideal .bf16) (ix2 r k) := by
  obtain ⟨e0, e1, -⟩ := partial_index_maps t
  unfold iblk1
  rw [View.read_apply]
  show V c main_v0 _ = V c main_v0 _
  congr 1
  funext d
  apply Fin.ext
  match d with
  | ⟨0, _⟩ => show win1_0.index t (0 : Fin 2) * 512 + 1 * a.val = r.val; rw [e0, hr]; omega
  | ⟨1, _⟩ => show win1_0.index t (1 : Fin 2) * 4096 + 1 * k.val = k.val; rw [e1]; omega

/-- The A block is all of A. -/
theorem partial_wblk_apply (c : Dev nD) (t : Fin cfg1.N) (b : Fin 1000) (k : Fin 4096) :
    (iblk1 V c 1 t : Vec Ideal S1000x4096 .bf16) (ix2 b k) = (V c main_v3 : S1000x4096.Idx → Elt Ideal .bf16) (ix2 b k) := by
  obtain ⟨-, -, e0, e1, -⟩ := partial_index_maps t
  unfold iblk1
  rw [View.read_apply]
  show V c main_v3 _ = V c main_v3 _
  congr 1
  funext d
  apply Fin.ext
  match d with
  | ⟨0, _⟩ => show win1_1.index t (0 : Fin 2) * 1000 + 1 * b.val = b.val; rw [e0]; omega
  | ⟨1, _⟩ => show win1_1.index t (1 : Fin 2) * 4096 + 1 * k.val = k.val; rw [e1]; omega

/-- The b2 block is all of b2 as a row. -/
theorem partial_bblk_apply (c : Dev nD) (t : Fin cfg1.N) (b : Fin 1000) :
    (iblk1 V c 2 t : Vec Ideal S1x1000 .f32) (ix2 0 b) = (V c main_v7 : S1x1000.Idx → Elt Ideal .f32) (ix2 0 b) := by
  obtain ⟨-, -, -, -, e0, e1, -⟩ := partial_index_maps t
  unfold iblk1
  rw [View.read_apply]
  show V c main_v7 _ = V c main_v7 _
  congr 1
  funext d
  apply Fin.ext
  match d with
  | ⟨0, _⟩ => show win1_2.index t (0 : Fin 2) * 1 + 1 * 0 = 0; rw [e0]
  | ⟨1, _⟩ => show win1_2.index t (1 : Fin 2) * 1000 + 1 * b.val = b.val; rw [e1]; omega

/-! ## What a point writes back, and the array after the run -/

/-- Point t writes back row block t of x A^T + b2 of the arrays the region finds. -/
theorem partial_flushed (c : Dev nD) (t : Fin cfg1.N) :
    (dat1 (F := Ideal) V c).flushed 3 t
      = ((cfg1.win 3).blk t).view.read (Elt Ideal) (Cert.MlpSpec.partialOut (V c main_v0) (V c main_v3) (V c main_v7)) := by
  show (cfg1.win 3).cut (grid1.coords t) ((dat1 V c).after 3 t) = _
  rw [after1_3, partial1_eq]
  obtain ⟨-, -, -, -, -, -, e0, e1⟩ := partial_index_maps t
  funext j
  obtain ⟨a, b, rfl⟩ : ∃ (a : Fin 512) (b : Fin 1000), j = ix2 a b := ⟨j 0, j 1, eq_ix2 j⟩
  have hr : 512 * t.val + a.val < 4096 := by
    have := t.isLt; have hN : cfg1.N = 8 := N_1; have := a.isLt; omega
  have hemb : ((cfg1.win 3).blk t).view.emb (ix2 a b)
      = (ix2 (⟨512 * t.val + a.val, hr⟩ : Fin 4096) b : S4096x1000.Idx) := by
    funext d
    apply Fin.ext
    match d with
    | ⟨0, _⟩ => show win1_3.index t (0 : Fin 2) * 512 + 1 * a.val = 512 * t.val + a.val; rw [e0]; omega
    | ⟨1, _⟩ => show win1_3.index t (1 : Fin 2) * 1000 + 1 * b.val = b.val; rw [e1]; omega
  show k1_pay1 (F := Ideal) (iblk1 V c 0 t) (iblk1 V c 1 t) (iblk1 V c 2 t) (ix2 a b)
    = Cert.MlpSpec.partialOut (V c main_v0) (V c main_v3) (V c main_v7) (((cfg1.win 3).blk t).view.emb (ix2 a b))
  rw [hemb, Cert.MlpSpec.partialOut_apply, partial_payload_apply]
  unfold Cert.MlpSpec.partialAt Cert.MlpSpec.dotRows
  rw [partial_bblk_apply V c t b]
  refine congrArg (fun s => s + _) (Finset.sum_congr rfl fun k _ => ?_)
  rw [partial_xblk_apply V c t a k ⟨512 * t.val + a.val, hr⟩ rfl, partial_wblk_apply V c t b k]

/-- An index of the result is in point t's block iff each coordinate is in the block's range on its axis. -/
theorem partial_mem_blk (t : Fin cfg1.N) (i : S4096x1000.Idx) :
    i ∈ ((cfg1.win 3).blk t).view.set ↔ ∀ a : Fin 2, win1_3.index t a * S512x1000.size a ≤ (i a).val ∧ (i a).val < win1_3.index t a * S512x1000.size a + S512x1000.size a := by
  show i ∈ ((View.whole main_v9).slice (win1_3.rect t)).set ↔ _
  rw [View.set_slice_whole, Rect.mem_set_unit]
  exact Iff.rfl

/-- Every index of the result lies in the row block of the point row / 512, which is written back. -/
theorem partial_cover (i : S4096x1000.Idx) :
    ∃ t : Fin cfg1.N, (cfg1.win 3).flush t = true ∧ i ∈ ((cfg1.win 3).blk t).view.set := by
  have hi0 : (i 0).val < 4096 := (i 0).isLt
  have hi1 : (i 1).val < 1000 := (i 1).isLt
  obtain ⟨t, ht⟩ := partial_blocks_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [partial_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1000 ≤ (i 1).val ∧ (i 1).val < win1_3.index t (1 : Fin 2) * 1000 + 1000; omega

/-- THE ARRAY the partial output's region leaves: x A^T + b2 of the arrays it found. -/
theorem partial_final (c : Dev nD) :
    (dat1 (F := Ideal) V c).arrAt 3 cfg1.N = Cert.MlpSpec.partialOut (V c main_v0) (V c main_v3) (V c main_v7) :=
  (dat1 (F := Ideal) V c).arrAt_eq_of_cover 3 (Cert.MlpSpec.partialOut (V c main_v0) (V c main_v3) (V c main_v7))
    (fun t _ => partial_flushed V c t) partial_cover

end Cert.KernelIdeal.Mlp

end
-- ==== Proof.Layer2bValue.lean ====
/-
  The accumulating layer (the part of the output layer that pairs with the hidden activations), read as values over the
  extended reals: what the accumulator holds after each grid point is the specification's running sum, and the result
  array ends holding the specification's accumulated output.

  The grid is 8 x 8 with the second coordinate k innermost: point t has row block i = t / 8 and column block k = t % 8.
  At every point the body leaves in the accumulator its previous contents (at k = 0: the partial output's row block)
  plus the product of the hidden activations' block with the weights' block, a sum over the block's 2048 columns; at
  k = 7 the same contents are copied to the output's staging buffer, which is written back there and only there.
-/
import proofs.«152252_j88965952569844_1_alg».proof.Proof.Layer2bRegion
import proofs.«152252_j88965952569844_1_alg».proof.Proof.MlpSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

section Cases

variable {F : FTy → Type} [FloatOps F]

/-- The offsets of an access to a whole [rows, columns] block are zero on both axes. -/
theorem zero_offsets2 : (![0, 0] : Fin 2 → Nat) = fun _ => 0 := funext fun a => by fin_cases a <;> rfl

/-- At a point with 0 < k < 7 the body leaves in the accumulator, which held `xs`, the accumulating payload of `xs` and
    the two input blocks: its one store covers the accumulator, and its loads read whole buffers. -/
theorem accMiddle_eq (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : ¬isLast i) (x0 : Vec F S512x2048 .bf16) (x1 : Vec F S1000x2048 .bf16) (x2 : Vec F S512x1000 .f32) (xs : Vec F S512x1000 .f32) :
    accMiddle c i arg2 harg2 arg3 harg3 arg4 harg4 arg5 harg5 arg6 harg6 hc0 hc1 x0 x1 x2 xs = k2_pay2 xs x0 x1 := by
  unfold accMiddle
  rw [View.read_writes_eq_canon _ _ _ (accCover_middle c i arg2 harg2 arg3 harg3 arg4 harg4 arg5 harg5 arg6 harg6 hc0 hc1 x0 x1 x2 xs)]
  unfold runMiddle
  dsimp only
  rw [View.canon_unit_zero zero_offsets2]
  simp only [View.readAt_eq_ld, harg2.read_unread, harg3.read_unread, harg6.read_unread,
    View.ld_unit_zero (S := S512x1000) zero_offsets2, View.ld_unit_zero (S := S512x2048) zero_offsets2, View.ld_unit_zero (S := S1000x2048) zero_offsets2]

/-- At a point with k = 7 the body leaves in the accumulator, which held `xs`, the accumulating payload of `xs` and the
    two input blocks, exactly as at a point with 0 < k < 7. -/
theorem accLast_eq (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) :
    accLast c i arg2 harg2 arg3 harg3 arg4 harg4 arg5 harg5 arg6 harg6 hc0 hc1 x0 x1 x2 xs = k2_pay2 xs x0 x1 := by
  unfold accLast
  rw [View.read_writes_eq_canon _ _ _ (accCover_last c i arg2 harg2 arg3 harg3 arg4 harg4 arg5 harg5 arg6 harg6 hc0 hc1 x0 x1 x2 xs)]
  unfold runLast
  dsimp only
  sl_unfold_words
  rw [View.canon_unit_zero zero_offsets2]
  simp only [View.readAt_eq_ld, harg2.read_unread, harg3.read_unread, harg4.read_unread, harg6.read_unread,
    View.ld_unit_zero (S := S512x1000) zero_offsets2, View.ld_unit_zero (S := S512x2048) zero_offsets2, View.ld_unit_zero (S := S1000x2048) zero_offsets2]

/-- At a point with k = 7 the body leaves in the output's staging buffer a copy of what it has just stored in the
    accumulator: the value it stores there is the accumulator loaded after that store. -/
theorem outLast_eq (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : ¬isFirst i) (hc1 : isLast i) (x0 : Vec F S512x2048 .bf16) (x1 : Vec F S1000x2048 .bf16) (x2 : Vec F S512x1000 .f32) (xs : Vec F S512x1000 .f32) :
    outLast c i arg2 harg2 arg3 harg3 arg4 harg4 arg5 harg5 arg6 harg6 hc0 hc1 x0 x1 x2 xs = k2_pay2 xs x0 x1 := by
  unfold outLast
  rw [View.read_writes_eq_canon _ _ _ (outCover_last c i arg2 harg2 arg3 harg3 arg4 harg4 arg5 harg5 arg6 harg6 hc0 hc1 x0 x1 x2 xs)]
  unfold runLast
  dsimp only
  sl_unfold_words
  rw [View.canon_unit_zero zero_offsets2, View.readCov_unit_zero (S := S512x1000) _ zero_offsets2]
  simp only [View.readAt_eq_ld, harg2.read_unread, harg3.read_unread, harg4.read_unread, harg6.read_unread,
    View.ld_unit_zero (S := S512x1000) zero_offsets2, View.ld_unit_zero (S := S512x2048) zero_offsets2, View.ld_unit_zero (S := S1000x2048) zero_offsets2]

/-- At a point with k = 0 the body first stores the partial output's block `x2` in the accumulator, loads it back, and
    leaves the accumulating payload of that and the two input blocks: the later of its two stores covers the accumulator. -/
theorem accFirst_eq (c : Dev nD) (i : grid2.Coords) (arg2 : Memref sig .tc .vmem S512x2048 .bf16) (harg2 : arg2.IsWhole) (arg3 : Memref sig .tc .vmem S1000x2048 .bf16) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1000 .f32) (harg6 : arg6.IsWhole) (hc0 : isFirst i) (hc1 : ¬isLast i) (x0 : Vec F S512x2048 .bf16) (x1 : Vec F S1000x2048 .bf16) (x2 : Vec F S512x1000 .f32) :
    accFirst c i arg2 harg2 arg3 harg3 arg4 harg4 arg5 harg5 arg6 harg6 hc0 hc1 x0 x1 x2 = k2_pay2 (k2_pay1 x2) x0 x1 := by
  unfold accFirst
  rw [View.read_writes_eq_canon _ _ _ (accCover_first c i arg2 harg2 arg3 harg3 arg4 harg4 arg5 harg5 arg6 harg6 hc0 hc1 x0 x1 x2)]
  unfold runFirst
  dsimp only
  sl_unfold_words
  rw [View.canon_cons_unit_zero (S := S512x1000) zero_offsets2, View.readCov_unit_zero (S := S512x1000) _ zero_offsets2]
  simp only [View.readAt_eq_ld, harg2.read_unread, harg3.read_unread, harg4.read_unread, harg6.read_unread,
    View.ld_unit_zero (S := S512x1000) zero_offsets2, View.ld_unit_zero (S := S512x2048) zero_offsets2, View.ld_unit_zero (S := S1000x2048) zero_offsets2]

end Cases

section Payloads

/-- The payload stored at k = 0 is its argument: two shape casts to the same shape change nothing. -/
theorem k2_pay1_eq {F : FTy → Type} [FloatOps F] (x : Vec F S512x1000 .f32) : k2_pay1 x = x := by
  unfold k2_pay1
  simp only [shapeCast_self]

/-- The block product's left operand index at output index j and contraction position q has row j 0. -/
theorem lhs_k2_0 (j : S512x1000.Idx) (q : dot_S512x2048_S1000x2048_S512x1000_1_1_0_0_n_n.contr.Idx) :
    (dot_S512x2048_S1000x2048_S512x1000_1_1_0_0_n_n.lhsIdx j q 0).val = (j 0).val := by
  unfold DotDims.lhsIdx
  rw [dif_neg (show ¬(0 : Fin S512x2048.rank) ∈ dot_S512x2048_S1000x2048_S512x1000_1_1_0_0_n_n.lhsBatch by decide), dif_pos (show (0 : Fin S512x2048.rank) ∈ dot_S512x2048_S1000x2048_S512x1000_1_1_0_0_n_n.lhsNonContracting by decide)]
  rfl
/-- The block product's left operand index at output index j and contraction position q has column q. -/
theorem lhs_k2_1 (j : S512x1000.Idx) (q : dot_S512x2048_S1000x2048_S512x1000_1_1_0_0_n_n.contr.Idx) :
    (dot_S512x2048_S1000x2048_S512x1000_1_1_0_0_n_n.lhsIdx j q 1).val = (q ⟨0, by decide⟩).val :=
  dot_S512x2048_S1000x2048_S512x1000_1_1_0_0_n_n.lhsIdx_val_of_single rfl j q
/-- The block product's right operand index at output index j and contraction position q has row j 1. -/
theorem rhs_k2_0 (j : S512x1000.Idx) (q : dot_S512x2048_S1000x2048_S512x1000_1_1_0_0_n_n.contr.Idx) :
    (dot_S512x2048_S1000x2048_S512x1000_1_1_0_0_n_n.rhsIdx j q 0).val = (j 1).val := by
  unfold DotDims.rhsIdx
  rw [dif_neg (show ¬(0 : Fin S1000x2048.rank) ∈ dot_S512x2048_S1000x2048_S512x1000_1_1_0_0_n_n.rhsBatch by decide), dif_pos (show (0 : Fin S1000x2048.rank) ∈ dot_S512x2048_S1000x2048_S512x1000_1_1_0_0_n_n.rhsNonContracting by decide)]
  rfl
/-- The block product's right operand index at output index j and contraction position q has column q. -/
theorem rhs_k2_1 (j : S512x1000.Idx) (q : dot_S512x2048_S1000x2048_S512x1000_1_1_0_0_n_n.contr.Idx) :
    (dot_S512x2048_S1000x2048_S512x1000_1_1_0_0_n_n.rhsIdx j q 1).val = (q ⟨0, by decide⟩).val :=
  dot_S512x2048_S1000x2048_S512x1000_1_1_0_0_n_n.rhsIdx_val_of_single rfl j q

/-- Over the extended reals the accumulating payload at (a, b) is the previous contents there plus the sum, over the
    block's 2048 columns, of the products of row a of the left block with row b of the right block. -/
theorem k2_pay2_apply (xs : Vec Ideal S512x1000 .f32) (x0 : Vec Ideal S512x2048 .bf16) (x1 : Vec Ideal S1000x2048 .bf16)
    (a : Fin 512) (b : Fin 1000) :
    k2_pay2 (F := Ideal) xs x0 x1 (ix2 a b) = xs (ix2 a b) + ∑ j : Fin 2048, x0 (ix2 a j) * x1 (ix2 b j) := by
  unfold k2_pay2
  simp only [shapeCast_self]
  rw [addf_apply]
  congr 1
  simp only [matmul]
  rw [Ideal.matmul_constant_zero_apply, ← Equiv.sum_comp (contrEquiv1 dot_S512x2048_S1000x2048_S512x1000_1_1_0_0_n_n 2048 rfl rfl).symm]
  refine Finset.sum_congr rfl fun k _ => ?_
  have hk := contrEquiv1_symm_val dot_S512x2048_S1000x2048_S512x1000_1_1_0_0_n_n 2048 rfl rfl k
  have el : dot_S512x2048_S1000x2048_S512x1000_1_1_0_0_n_n.lhsIdx (ix2 a b) ((contrEquiv1 dot_S512x2048_S1000x2048_S512x1000_1_1_0_0_n_n 2048 rfl rfl).symm k) = ix2 a k := funext fun d => Fin.ext (by
    match d with
    | ⟨0, _⟩ => exact lhs_k2_0 _ _
    | ⟨1, _⟩ => exact (lhs_k2_1 _ _).trans hk)
  have er : dot_S512x2048_S1000x2048_S512x1000_1_1_0_0_n_n.rhsIdx (ix2 a b) ((contrEquiv1 dot_S512x2048_S1000x2048_S512x1000_1_1_0_0_n_n 2048 rfl rfl).symm k) = ix2 b k := funext fun d => Fin.ext (by
    match d with
    | ⟨0, _⟩ => exact rhs_k2_0 _ _
    | ⟨1, _⟩ => exact (rhs_k2_1 _ _).trans hk)
  rw [el, er]

end Payloads

section Blocks

variable {F : FTy → Type} [FloatOps F]
variable (V : (c : Dev nD) → (b : Ref sig .tc) → Buf (Elt F) ((c : Thread nD τ).loc b))

/-- The hidden activations' window at point t is at row block t / 8, column block t % 8. -/
theorem index2_0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
/-- The weights' window at point t is at row block 0, column block t % 8. -/
theorem index2_1 : ∀ t : Fin cfg2.N, win2_1.index t 0 = 0 ∧ win2_1.index t 1 = t.val % 8 :=
  (by decide +kernel : ∀ t : Fin grid2.N, win2_1.index t 0 = 0 ∧ win2_1.index t 1 = t.val % 8)
/-- The partial output's window at point t is at row block t / 8, column block 0. -/
theorem index2_2 : ∀ t : Fin cfg2.N, win2_2.index t 0 = t.val / 8 ∧ win2_2.index t 1 = 0 :=
  (by decide +kernel : ∀ t : Fin grid2.N, win2_2.index t 0 = t.val / 8 ∧ win2_2.index t 1 = 0)
/-- The result's window at point t is at row block t / 8, column block 0. -/
theorem index2_3 : ∀ t : Fin cfg2.N, win2_3.index t 0 = t.val / 8 ∧ win2_3.index t 1 = 0 :=
  (by decide +kernel : ∀ t : Fin grid2.N, win2_3.index t 0 = t.val / 8 ∧ win2_3.index t 1 = 0)

/-- Row 512 (n / 8) + a of a 4096-row matrix: row a of the row block of the point at position n. -/
abbrev accum_row (n : ℕ) (hn : n < cfg2.N) (a : Fin 512) : Fin 4096 :=
  ⟨512 * (n / 8) + a.val, by have h : n < 64 := lt_of_lt_of_eq hn N_2; have := a.isLt; omega⟩
/-- Column 2048 (n % 8) + j of a 16384-column matrix: column j of the column block of the point at position n. -/
abbrev accum_col (n : ℕ) (j : Fin 2048) : Fin 16384 :=
  ⟨2048 * (n % 8) + j.val, by have := j.isLt; omega⟩

/-- The hidden activations' block at point t, at (a, j), is the array at (512 (t / 8) + a, 2048 (t % 8) + j). -/
theorem iblk2_0_apply (c : Dev nD) (t : Fin cfg2.N) (a : Fin 512) (j : Fin 2048) :
    (iblk2 V c 0 t : Vec F S512x2048 .bf16) (ix2 a j) = V c main_v8 (ix2 (accum_row t.val t.isLt a) (accum_col t.val j)) := by
  unfold iblk2
  rw [View.read_apply]
  show V c main_v8 _ = V c main_v8 _
  congr 1
  funext d
  apply Fin.ext
  match d with
  | ⟨0, _⟩ => show win2_0.index t 0 * 512 + 1 * a.val = 512 * (t.val / 8) + a.val; rw [(index2_0 t).1]; omega
  | ⟨1, _⟩ => show win2_0.index t 1 * 2048 + 1 * j.val = 2048 * (t.val % 8) + j.val; rw [(index2_0 t).2]; omega

/-- The weights' block at point t, at (b, j), is the array at (b, 2048 (t % 8) + j). -/
theorem iblk2_1_apply (c : Dev nD) (t : Fin cfg2.N) (b : Fin 1000) (j : Fin 2048) :
    (iblk2 V c 1 t : Vec F S1000x2048 .bf16) (ix2 b j) = V c main_v5 (ix2 b (accum_col t.val j)) := by
  unfold iblk2
  rw [View.read_apply]
  show V c main_v5 _ = V c main_v5 _
  congr 1
  funext d
  apply Fin.ext
  match d with
  | ⟨0, _⟩ => show win2_1.index t 0 * 1000 + 1 * b.val = b.val; rw [(index2_1 t).1]; omega
  | ⟨1, _⟩ => show win2_1.index t 1 * 2048 + 1 * j.val = 2048 * (t.val % 8) + j.val; rw [(index2_1 t).2]; omega

/-- The partial output's block at point t, at (a, b), is the array at (512 (t / 8) + a, b). -/
theorem iblk2_2_apply (c : Dev nD) (t : Fin cfg2.N) (a : Fin 512) (b : Fin 1000) :
    (iblk2 V c 2 t : Vec F S512x1000 .f32) (ix2 a b) = V c main_v9 (ix2 (accum_row t.val t.isLt a) b) := by
  unfold iblk2
  rw [View.read_apply]
  show V c main_v9 _ = V c main_v9 _
  congr 1
  funext d
  apply Fin.ext
  match d with
  | ⟨0, _⟩ => show win2_2.index t 0 * 512 + 1 * a.val = 512 * (t.val / 8) + a.val; rw [(index2_2 t).1]; omega
  | ⟨1, _⟩ => show win2_2.index t 1 * 1000 + 1 * b.val = b.val; rw [(index2_2 t).2]; omega

/-! ### The accumulator from point to point -/

/-- At a point with k = 0 the accumulator ends at the partial output's block plus the product of the point's blocks. -/
theorem stateAt_snd_first (c : Dev nD) (n : ℕ) (h : n < cfg2.N) (h0 : n % 8 = 0) :
    (stateAt V c n h).2 = k2_pay2 (k2_pay1 (iblk2 V c 2 ⟨n, h⟩)) (iblk2 V c 0 ⟨n, h⟩) (iblk2 V c 1 ⟨n, h⟩) := by
  have h1 : ¬n % 8 = 7 := by omega
  rw [show stateAt V c n h = _ from stateAt_first V c ⟨n, h⟩ h0 h1, accFirst_eq]

/-- At a point with k > 0 the accumulator ends at what the point before left plus the product of the point's blocks. -/
theorem stateAt_snd_succ (c : Dev nD) (n : ℕ) (h : n + 1 < cfg2.N) (h0 : ¬(n + 1) % 8 = 0) :
    (stateAt V c (n + 1) h).2
      = k2_pay2 (stateAt V c n (Nat.lt_of_succ_lt h)).2 (iblk2 V c 0 ⟨n + 1, h⟩) (iblk2 V c 1 ⟨n + 1, h⟩) := by
  by_cases h1 : (n + 1) % 8 = 7
  · rw [show stateAt V c (n + 1) h = _ from stateAt_last V c ⟨n + 1, h⟩ h0 h1, accLast_eq]
    rfl
  · rw [show stateAt V c (n + 1) h = _ from stateAt_middle V c ⟨n + 1, h⟩ h0 h1, accMiddle_eq]
    rfl

/-- At a point with k = 7 the output's staging buffer ends holding what the accumulator ends holding. -/
theorem stateAt_fst_last (c : Dev nD) (t : Fin cfg2.N) (h1 : t.val % 8 = 7) :
    (stateAt V c t.val t.isLt).1 = (stateAt V c t.val t.isLt).2 := by
  have h0 : ¬t.val % 8 = 0 := by omega
  rw [stateAt_last V c t h0 h1, outLast_eq, accLast_eq]

end Blocks

section Value

variable (V : (c : Dev nD) → (b : Ref sig .tc) → Buf (Elt Ideal) ((c : Thread nD τ).loc b))

/-- The specification's running sum after block k = 0 is the partial output plus block 0's contribution, however the
    block number is written. -/
theorem accUpTo_of_zero (hd : Cert.MlpSpec.Mat 4096 16384) (w : Cert.MlpSpec.Mat 1000 16384) (outp : Cert.MlpSpec.Mat 4096 1000)
    (p : Fin 4096) (o : Fin 1000) (k : ℕ) (h : k < 8) (hk : k = 0) :
    Cert.MlpSpec.accUpTo hd w outp p o k h = outp (ix2 p o) + Cert.MlpSpec.blockDot hd w p o ⟨k, h⟩ := by
  subst hk; rfl

/-- The specification's running sum after block k = k' + 1 is the one after block k' plus block k's contribution,
    however the block numbers are written. -/
theorem accUpTo_of_succ (hd : Cert.MlpSpec.Mat 4096 16384) (w : Cert.MlpSpec.Mat 1000 16384) (outp : Cert.MlpSpec.Mat 4096 1000)
    (p : Fin 4096) (o : Fin 1000) (k k' : ℕ) (h : k < 8) (h' : k' < 8) (hk : k = k' + 1) :
    Cert.MlpSpec.accUpTo hd w outp p o k h
      = Cert.MlpSpec.accUpTo hd w outp p o k' h' + Cert.MlpSpec.blockDot hd w p o ⟨k, h⟩ := by
  subst hk; rfl

/-- The specification's running sum does not depend on how its block number is written. -/
theorem accUpTo_congr (hd : Cert.MlpSpec.Mat 4096 16384) (w : Cert.MlpSpec.Mat 1000 16384) (outp : Cert.MlpSpec.Mat 4096 1000)
    (p : Fin 4096) (o : Fin 1000) (k k' : ℕ) (h : k < 8) (h' : k' < 8) (hk : k = k') :
    Cert.MlpSpec.accUpTo hd w outp p o k h = Cert.MlpSpec.accUpTo hd w outp p o k' h' := by
  subst hk; rfl

/-- The accumulating payload over the blocks of the point at position n, at (a, b): the previous contents there plus the
    specification's contribution of column block n % 8 at row 512 (n / 8) + a and output b. -/
theorem pay2_blocks (c : Dev nD) (n : ℕ) (h : n < cfg2.N) (a : Fin 512) (b : Fin 1000) (xs : Vec Ideal S512x1000 .f32) :
    k2_pay2 (F := Ideal) xs (iblk2 V c 0 ⟨n, h⟩) (iblk2 V c 1 ⟨n, h⟩) (ix2 a b)
      = xs (ix2 a b) + Cert.MlpSpec.blockDot (V c main_v8) (V c main_v5) (accum_row n h a) b ⟨n % 8, Nat.mod_lt _ (by decide)⟩ := by
  rw [k2_pay2_apply]
  refine congrArg (xs (ix2 a b) + ·) ?_
  unfold Cert.MlpSpec.blockDot
  refine Finset.sum_congr rfl fun j _ => ?_
  rw [iblk2_0_apply, iblk2_1_apply]

/-- After the point at position n the accumulator holds, at (a, b), the specification's running sum after column block
    n % 8 at row 512 (n / 8) + a and output b: by induction on the position. At n % 8 = 0 the sum starts from the partial
    output; otherwise n / 8 is the position before's and n % 8 is one more than the position before's. -/
theorem stateAt_acc (c : Dev nD) : ∀ (n : ℕ) (h : n < cfg2.N) (a : Fin 512) (b : Fin 1000),
    (stateAt V c n h).2 (ix2 a b)
      = Cert.MlpSpec.accUpTo (V c main_v8) (V c main_v5) (V c main_v9) (accum_row n h a) b (n % 8) (Nat.mod_lt _ (by decide))
  | 0, h, a, b => by
    rw [stateAt_snd_first V c 0 h rfl, pay2_blocks, k2_pay1_eq, iblk2_2_apply]
    exact (accUpTo_of_zero _ _ _ _ _ _ _ rfl).symm
  | n + 1, h, a, b => by
    by_cases h0 : (n + 1) % 8 = 0
    · rw [stateAt_snd_first V c (n + 1) h h0, pay2_blocks, k2_pay1_eq, iblk2_2_apply]
      exact (accUpTo_of_zero _ _ _ _ _ _ _ h0).symm
    · rw [stateAt_snd_succ V c n h h0, pay2_blocks, stateAt_acc c n (Nat.lt_of_succ_lt h) a b]
      have er : accum_row n (Nat.lt_of_succ_lt h) a = accum_row (n + 1) h a :=
        Fin.ext (by show 512 * (n / 8) + a.val = 512 * ((n + 1) / 8) + a.val; omega)
      rw [er]
      exact (accUpTo_of_succ _ _ _ _ _ _ _ _ _ (by omega)).symm

/-! ### The result array -/

/-- What a point with k = 7 writes back is its block of the specification's accumulated output: the output's staging
    buffer holds there what the accumulator holds, the running sum after the last column block. -/
theorem flushed2_3_eq (c : Dev nD) (t : Fin cfg2.N) (hf : (cfg2.win 3).flush t = true) :
    (dat2 V c).flushed 3 t
      = ((cfg2.win 3).blk t).view.read (Elt Ideal) (Cert.MlpSpec.accum (V c main_v8) (V c main_v5) (V c main_v9)) := by
  have h7 : t.val % 8 = 7 := (flush2_3 t).mp hf
  show (cfg2.win 3).cut (grid2.coords t) ((dat2 V c).after 3 t) = _
  rw [after2_3, stateAt_fst_last V c t h7]
  funext y
  obtain ⟨a, b, rfl⟩ : ∃ (a : Fin 512) (b : Fin 1000), y = ix2 a b := ⟨y 0, y 1, eq_ix2 y⟩
  rw [View.read_apply]
  show (stateAt V c t.val t.isLt).2 (ix2 a b)
    = Cert.MlpSpec.accum (V c main_v8) (V c main_v5) (V c main_v9) (((cfg2.win 3).blk t).view.emb (ix2 a b))
  have he : ((cfg2.win 3).blk t).view.emb (ix2 a b) = ix2 (accum_row t.val t.isLt a) b := funext fun d => Fin.ext (by
    match d with
    | ⟨0, _⟩ => show win2_3.index t 0 * 512 + 1 * a.val = 512 * (t.val / 8) + a.val; rw [(index2_3 t).1]; omega
    | ⟨1, _⟩ => show win2_3.index t 1 * 1000 + 1 * b.val = b.val; rw [(index2_3 t).2]; omega)
  rw [he, Cert.MlpSpec.accum_apply, stateAt_acc V c t.val t.isLt a b]
  exact accUpTo_congr _ _ _ _ _ _ _ _ _ h7

/-- Every index of the result array, at row r, lies in the block that the point 8 (r / 512) + 7 writes back. -/
theorem cover2_3 (c : Dev nD) (i : ((cfg2.win 3).arr.view.loc (c.tc : Thread nD τ)).2.ty.Idx) :
    ∃ t : Fin cfg2.N, (cfg2.win 3).flush t = true ∧ i ∈ ((cfg2.win 3).blk t).view.set := by
  have hr : (i 0).val < 4096 := (i 0).isLt
  have hq : (i 1).val < 1000 := (i 1).isLt
  have hN : cfg2.N = 64 := N_2
  have ht : 8 * ((i 0).val / 512) + 7 < cfg2.N := by rw [hN]; omega
  refine ⟨⟨8 * ((i 0).val / 512) + 7, ht⟩, (flush2_3 _).mpr (by show (8 * ((i 0).val / 512) + 7) % 8 = 7; omega), ?_⟩
  show i ∈ ((View.whole main_v10).slice (win2_3.rect ⟨8 * ((i 0).val / 512) + 7, ht⟩)).set
  rw [View.set_slice_whole, Rect.mem_set_unit]
  intro d
  match d with
  | ⟨0, _⟩ =>
    show win2_3.index ⟨8 * ((i 0).val / 512) + 7, ht⟩ 0 * 512 ≤ (i 0).val
      ∧ (i 0).val < win2_3.index ⟨8 * ((i 0).val / 512) + 7, ht⟩ 0 * 512 + 512
    rw [(index2_3 ⟨8 * ((i 0).val / 512) + 7, ht⟩).1]
    show (8 * ((i 0).val / 512) + 7) / 8 * 512 ≤ (i 0).val ∧ (i 0).val < (8 * ((i 0).val / 512) + 7) / 8 * 512 + 512
    omega
  | ⟨1, _⟩ =>
    show win2_3.index ⟨8 * ((i 0).val / 512) + 7, ht⟩ 1 * 1000 ≤ (i 1).val
      ∧ (i 1).val < win2_3.index ⟨8 * ((i 0).val / 512) + 7, ht⟩ 1 * 1000 + 1000
    rw [(index2_3 ⟨8 * ((i 0).val / 512) + 7, ht⟩).2]
    omega

/-- The result array ends holding the specification's accumulated output of the hidden activations, the weights'
    last 16384 columns and the partial output: every point with k = 7 writes back its block of it, and those blocks
    cover the array. -/
theorem accum_final (c : Dev nD) :
    (dat2 (F := Ideal) V c).arrAt 3 cfg2.N = Cert.MlpSpec.accum (V c main_v8) (V c main_v5) (V c main_v9) :=
  (dat2 V c).arrAt_eq_of_cover 3 (Cert.MlpSpec.accum (V c main_v8) (V c main_v5) (V c main_v9)) (flushed2_3_eq V c) (cover2_3 c)

end Value

end Cert.KernelIdeal.Mlp

end
-- ==== Proof.HostValues.lean ====
/-
  What the host operations before the first pallas_call leave, over the extended reals, where a change of float format is
  the identity: the bf16 copies of x and W1 are x and W1; the bf16 copies of the two column ranges of W2 are its first
  4096 and its last 16384 columns; b1 and b2 reshaped to one row are those vectors laid out as rows.
-/
import proofs.«152252_j88965952569844_1_alg».proof.Proof.MainRun
import proofs.«152252_j88965952569844_1_alg».proof.Proof.MlpSpec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Mlp

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-- The bf16 copy of x is x. -/
theorem entry_x (c : Dev nD) : (E1 m ρ c main_v0 : S4096x4096.Idx → EReal) = m ((c : Thread nD τ).loc main_arg0) := by
  show StableHlo.after hostOps0 _ (Proc.devRef .tc main_v0) = _
  after_results
  rfl

/-- The bf16 copy of W1 is W1. -/
theorem entry_w1 (c : Dev nD) : (E1 m ρ c main_v1 : S16384x4096.Idx → EReal) = m ((c : Thread nD τ).loc main_arg1) := by
  show StableHlo.after hostOps0 _ (Proc.devRef .tc main_v1) = _
  after_results
  rfl

/-- The bf16 copy of W2[:, :4096] is W2's first 4096 columns. -/
theorem entry_w2a (c : Dev nD) : (E1 m ρ c main_v3 : S1000x4096.Idx → EReal) = Cert.MlpSpec.firstCols (m ((c : Thread nD τ).loc main_arg3)) := by
  show StableHlo.after hostOps0 _ (Proc.devRef .tc main_v3) = _
  after_results
  funext i
  show extractStridedSlice S1000x4096 ![0, 0] (m ((c : Thread nD τ).loc main_arg3)) slices_S1000x20480_S1000x4096_0_0 i = _
  unfold Cert.MlpSpec.firstCols
  refine extractStridedSlice_apply _ _ _ i _ (fun a => ?_)
  match a with
  | ⟨0, _⟩ => show (i 0).val = 0 + (i 0).val; omega
  | ⟨1, _⟩ => show (i 1).val = 0 + (i 1).val; omega

/-- The bf16 copy of W2[:, 4096:] is W2's last 16384 columns. -/
theorem entry_w2b (c : Dev nD) : (E1 m ρ c main_v5 : S1000x16384.Idx → EReal) = Cert.MlpSpec.lastCols (m ((c : Thread nD τ).loc main_arg3)) := by
  show StableHlo.after hostOps0 _ (Proc.devRef .tc main_v5) = _
  after_results
  funext i
  show extractStridedSlice S1000x16384 ![0, 4096] (m ((c : Thread nD τ).loc main_arg3)) slices_S1000x20480_S1000x16384_0_4096 i = _
  unfold Cert.MlpSpec.lastCols
  refine extractStridedSlice_apply _ _ _ i _ (fun a => ?_)
  match a with
  | ⟨0, _⟩ => show (i 0).val = 0 + (i 0).val; omega
  | ⟨1, _⟩ => show 4096 + (i 1).val = 4096 + (i 1).val; rfl

/-- b1 reshaped to one row is b1 laid out as a row. -/
theorem entry_b1 (c : Dev nD) : (E1 m ρ c main_v6 : S1x16384.Idx → EReal) = Cert.MlpSpec.asRow (m ((c : Thread nD τ).loc main_arg2)) := by
  show StableHlo.after hostOps0 _ (Proc.devRef .tc main_v6) = _
  after_results
  funext i
  show shapeCast S1x16384 (m ((c : Thread nD τ).loc main_arg2)) shapeCasts_S16384_S1x16384 i = _
  refine (shapeCast_addUnit_apply ![16384] _ shapeCasts_S16384_S1x16384 i).trans ?_
  unfold Cert.MlpSpec.asRow
  congr 1
  funext a
  match a with
  | ⟨0, _⟩ => rfl

/-- b2 reshaped to one row is b2 laid out as a row. -/
theorem entry_b2 (c : Dev nD) : (E1 m ρ c main_v7 : S1x1000.Idx → EReal) = Cert.MlpSpec.asRow (m ((c : Thread nD τ).loc main_arg4)) := by
  show StableHlo.after hostOps0 _ (Proc.devRef .tc main_v7) = _
  after_results
  funext i
  show shapeCast S1x1000 (m ((c : Thread nD τ).loc main_arg4)) shapeCasts_S1000_S1x1000 i = _
  refine (shapeCast_addUnit_apply ![1000] _ shapeCasts_S1000_S1x1000 i).trans ?_
  unfold Cert.MlpSpec.asRow
  congr 1
  funext a
  match a with
  | ⟨0, _⟩ => rfl

end Cert.KernelIdeal.Mlp

end
-- ==== Proof.KernelValue.lean ====
/-
  The kernel's result as one function of the five arguments, over the extended reals. The third region's write-backs
  leave the accumulation of what it finds: the hidden activations (what the first region left: max (x W1^T + b1, 0)), W2's
  last 16384 columns, and the partial output (what the second region left: x A^T + b2, A being W2's first 4096 columns).
  No region or host operation in between touches what a later one reads, so each is read back through the boundaries to
  the launch contents.
-/
import proofs.«152252_j88965952569844_1_alg».proof.Proof.MainRun
import proofs.«152252_j88965952569844_1_alg».proof.Proof.Layer1Value
import proofs.«152252_j88965952569844_1_alg».proof.Proof.Layer2aValue
import proofs.«152252_j88965952569844_1_alg».proof.Proof.Layer2bValue
import proofs.«152252_j88965952569844_1_alg».proof.Proof.HostValues
import proofs.«152252_j88965952569844_1_alg».proof.Proof.MlpSpec

set_option maxRecDepth 16384

noncomputable section

open scoped BigOperators

namespace Cert.KernelIdeal.Mlp

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-- x as the second region finds it: the first region staged it and left it alone. -/
theorem second_finds_x (c : Dev nD) : (E2 m ρ c main_v0 : S4096x4096.Idx → EReal) = (m ((c : Thread nD τ).loc main_arg0)) :=
  ((B2_arr m ρ c 0).trans (((dat0 (E1 m ρ) c).arrAt_in 0 rfl _).trans (A_eq0 (E1 m ρ) c 0))).trans (entry_x m ρ c)

/-- A as the second region finds it. -/
theorem second_finds_a (c : Dev nD) : (E2 m ρ c main_v3 : S1000x4096.Idx → EReal) = Cert.MlpSpec.firstCols (m ((c : Thread nD τ).loc main_arg3)) :=
  (B2_of_ne m ρ c main_v3 (by decide)).trans (entry_w2a m ρ c)

/-- b2 as a row, as the second region finds it. -/
theorem second_finds_b2 (c : Dev nD) : (E2 m ρ c main_v7 : S1x1000.Idx → EReal) = Cert.MlpSpec.asRow (m ((c : Thread nD τ).loc main_arg4)) :=
  (B2_of_ne m ρ c main_v7 (by decide)).trans (entry_b2 m ρ c)

/-- The hidden activations as the third region finds them: what the first region's write-backs left. -/
theorem third_finds_hidden (c : Dev nD) :
    (E3 m ρ c main_v8 : S4096x16384.Idx → EReal) = Cert.MlpSpec.hidden (m ((c : Thread nD τ).loc main_arg0)) (m ((c : Thread nD τ).loc main_arg1)) (Cert.MlpSpec.asRow (m ((c : Thread nD τ).loc main_arg2))) := by
  have h1 : E3 m ρ c main_v8 = E2 m ρ c main_v8 := B3_of_ne m ρ c main_v8 (by decide)
  have h2 : E2 m ρ c main_v8 = (dat0 (E1 m ρ) c).arrAt 3 cfg0.N := B2_arr m ρ c 3
  rw [h1, h2, hidden_final, entry_x, entry_w1, entry_b1]

/-- W2's last 16384 columns as the third region finds them. -/
theorem third_finds_b (c : Dev nD) : (E3 m ρ c main_v5 : S1000x16384.Idx → EReal) = Cert.MlpSpec.lastCols (m ((c : Thread nD τ).loc main_arg3)) :=
  ((B3_of_ne m ρ c main_v5 (by decide)).trans (B2_of_ne m ρ c main_v5 (by decide))).trans (entry_w2b m ρ c)

/-- The partial output as the third region finds it: what the second region's write-backs left. -/
theorem third_finds_partial (c : Dev nD) :
    (E3 m ρ c main_v9 : S4096x1000.Idx → EReal)
      = Cert.MlpSpec.partialOut (m ((c : Thread nD τ).loc main_arg0)) (Cert.MlpSpec.firstCols (m ((c : Thread nD τ).loc main_arg3))) (Cert.MlpSpec.asRow (m ((c : Thread nD τ).loc main_arg4))) := by
  have h1 : E3 m ρ c main_v9 = (dat1 (E2 m ρ) c).arrAt 3 cfg1.N := B3_arr m ρ c 3
  rw [h1, partial_final, second_finds_x, second_finds_a, second_finds_b2]

/-- THE RESULT: the array the third region's write-backs leave is the kernel's function of the five arguments. -/
theorem kernel_result (c : Dev nD) :
    (dat2 (F := Ideal) (E3 m ρ) c).arrAt 3 cfg2.N
      = Cert.MlpSpec.mlp (m ((c : Thread nD τ).loc main_arg0)) (m ((c : Thread nD τ).loc main_arg1)) (m ((c : Thread nD τ).loc main_arg2)) (m ((c : Thread nD τ).loc main_arg3)) (m ((c : Thread nD τ).loc main_arg4)) := by
  rw [accum_final (E3 m ρ) c, third_finds_hidden, third_finds_b, third_finds_partial]
  rfl

end Cert.KernelIdeal.Mlp

end
-- ==== Proof.RefValue.lean ====
/-
  The reference's result, index by index, is the function Cert.MlpSpec.mlp of the five arguments.

  At (p, o) the reference is (∑ c : Fin 20480, cat (p, c) * W2 (o, c)) + b2 (o), where cat (p, c) is x (p, c) for
  c < 4096 and the hidden activation (p, c - 4096) otherwise; mlp is ((∑ d : Fin 4096, x (p, d) * W2 (o, d)) + b2 (o))
  plus the eight blocks of 2048 hidden columns added in order. The two agree by commutativity and associativity of
  addition alone: the sum over 20480 columns splits at 4096, and the remaining 16384 columns into 8 blocks of 2048.
-/
import proofs.«152252_j88965952569844_1_alg».proof.Proof.Gen.ReferenceIdeal.Read
import proofs.«152252_j88965952569844_1_alg».proof.Proof.MlpSpec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

open scoped BigOperators

/-! ## Re-indexing a sum over 20480 columns: 4096 columns, then 8 blocks of 2048 -/

namespace Cert.ReferenceIdeal.RefValue

section Reindex

variable {M : Type*} [AddCommMonoid M]

/-- A sum over 16384 = 8 · 2048 columns is the sum over the 8 blocks of the sums over each block's 2048 columns,
    column 2048 k + j being the j-th of block k. -/
theorem sum_blocks (g : Fin 16384 → M) :
    ∑ i : Fin 16384, g i
      = ∑ k : Fin 8, ∑ j : Fin 2048, g ⟨2048 * k.val + j.val, by have := k.isLt; have := j.isLt; omega⟩ := by
  have e : ∑ i : Fin 16384, g i = ∑ x : Fin 8 × Fin 2048, g (finProdFinEquiv x) :=
    (Equiv.sum_comp (finProdFinEquiv (m := 8) (n := 2048)) g).symm
  rw [e, Fintype.sum_prod_type]
  refine Finset.sum_congr rfl fun k _ => Finset.sum_congr rfl fun j _ => ?_
  refine congrArg g (Fin.ext ?_)
  show j.val + 2048 * k.val = 2048 * k.val + j.val
  omega

/-- A sum over 20480 = 4096 + 16384 columns: the first 4096, then the other 16384 in 8 blocks of 2048. -/
theorem sum_split (f : Fin 20480 → M) :
    ∑ c : Fin 20480, f c
      = (∑ d : Fin 4096, f ⟨d.val, by have := d.isLt; omega⟩)
        + ∑ k : Fin 8, ∑ j : Fin 2048,
            f ⟨4096 + (2048 * k.val + j.val), by have := k.isLt; have := j.isLt; omega⟩ := by
  have e : ∑ c : Fin 20480, f c
      = (∑ d : Fin 4096, f (Fin.castAdd 16384 d)) + ∑ i : Fin 16384, f (Fin.natAdd 4096 i) :=
    Fin.sum_univ_add (a := 4096) (b := 16384) f
  rw [e, sum_blocks (fun i => f (Fin.natAdd 4096 i))]
  rfl

/-- The same, the summand named on each side of column 4096. -/
theorem sum_split_of (f : Fin 20480 → M) (a : Fin 4096 → M) (g : Fin 16384 → M)
    (ha : ∀ d : Fin 4096, f ⟨d.val, by have := d.isLt; omega⟩ = a d)
    (hg : ∀ h : Fin 16384, f ⟨4096 + h.val, by have := h.isLt; omega⟩ = g h) :
    ∑ c : Fin 20480, f c
      = (∑ d : Fin 4096, a d)
        + ∑ k : Fin 8, ∑ j : Fin 2048, g ⟨2048 * k.val + j.val, by have := k.isLt; have := j.isLt; omega⟩ := by
  rw [sum_split f]
  refine congrArg₂ (· + ·) (Finset.sum_congr rfl fun d _ => ha d)
    (Finset.sum_congr rfl fun k _ => Finset.sum_congr rfl fun j _ => ?_)
  exact hg ⟨2048 * k.val + j.val, by have := k.isLt; have := j.isLt; omega⟩

end Reindex

end Cert.ReferenceIdeal.RefValue

/-! ## The reference read at an index -/

namespace Cert.ReferenceIdeal.RefValue

open Cert.ReferenceIdeal Cert.ReferenceIdeal.Gen Cert.ReferenceIdeal.Read Cert.MlpSpec
open Idealize.ShloMosaic Idealize.ShloMosaic.ValueIdx

section Program

variable (x0 : (⟨S4096x4096, .f32⟩ : BufTy).Contents (Elt Ideal)) (x1 : (⟨S16384x4096, .f32⟩ : BufTy).Contents (Elt Ideal))
  (x2 : (⟨S16384, .f32⟩ : BufTy).Contents (Elt Ideal)) (x3 : (⟨S1000x20480, .f32⟩ : BufTy).Contents (Elt Ideal))
  (x4 : (⟨S1000, .f32⟩ : BufTy).Contents (Elt Ideal))

/-! ### Where the operations read their operands, by coordinates -/

theorem lidx0 (p : Fin 4096) (h : Fin 16384) (k : Fin 4096) : lidx_main_v0 (ix2 p h) k = ix2 p k := by
  funext a; match a with | ⟨0, _⟩ => rfl | ⟨1, _⟩ => rfl
theorem ridx0 (p : Fin 4096) (h : Fin 16384) (k : Fin 4096) : ridx_main_v0 (ix2 p h) k = ix2 h k := by
  funext a; match a with | ⟨0, _⟩ => rfl | ⟨1, _⟩ => rfl
theorem bidx0 (p : Fin 4096) (h : Fin 16384) : idx_main_v1 (idx_main_v2 (ix2 p h)) = ix1 h := by
  funext a; match a with | ⟨0, _⟩ => rfl
theorem lidx6 (p : Fin 4096) (o : Fin 1000) (c : Fin 20480) : lidx_main_v6 (ix2 p o) c = ix2 p c := by
  funext a; match a with | ⟨0, _⟩ => rfl | ⟨1, _⟩ => rfl
theorem ridx6 (p : Fin 4096) (o : Fin 1000) (c : Fin 20480) : ridx_main_v6 (ix2 p o) c = ix2 o c := by
  funext a; match a with | ⟨0, _⟩ => rfl | ⟨1, _⟩ => rfl
theorem bidx6 (p : Fin 4096) (o : Fin 1000) : idx_main_v7 (idx_main_v8 (ix2 p o)) = ix1 o := by
  funext a; match a with | ⟨0, _⟩ => rfl

/-! ### The hidden layer -/

/-- The reference's activation at (p, h) is max (x W1^T + b1, 0) there. -/
theorem v4_apply (p : Fin 4096) (h : Fin 16384) :
    val_main_v4 (F := Ideal) x0 x1 x2 (ix2 p h) = hiddenAt x0 x1 (asRow x2) p h := by
  rw [val_main_v4_apply, val_main_v3_apply, val_main_v0_apply, val_main_v2_apply, val_main_v1_apply,
    val_main_call0_v0_apply, val_main_call0_cst_apply]
  simp only [lidx0, ridx0, bidx0]
  rfl

/-! ### The concatenation [x, hidden] along the columns -/

/-- Left of column 4096 the concatenation is x. -/
theorem v5_left (p : Fin 4096) (d : Fin 4096) :
    val_main_v5 (F := Ideal) x0 x1 x2 (ix2 p (⟨d.val, by have := d.isLt; omega⟩ : Fin 20480)) = x0 (ix2 p d) := by
  unfold val_main_v5
  exact concatenate_pair_apply_left (1 : Fin S4096x20480.rank) x0 (val_main_v4 (F := Ideal) x0 x1 x2) _ _ rfl (ix2 p d)
    (fun b => match b with | ⟨0, _⟩ => rfl | ⟨1, _⟩ => rfl)

/-- From column 4096 on it is the hidden activation, 4096 columns to the left. -/
theorem v5_right (p : Fin 4096) (h : Fin 16384) :
    val_main_v5 (F := Ideal) x0 x1 x2 (ix2 p (⟨4096 + h.val, by have := h.isLt; omega⟩ : Fin 20480))
      = val_main_v4 (F := Ideal) x0 x1 x2 (ix2 p h) := by
  unfold val_main_v5
  exact concatenate_pair_apply_right (1 : Fin S4096x20480.rank) x0 (val_main_v4 (F := Ideal) x0 x1 x2) _ _ rfl rfl (ix2 p h)
    (fun b => match b with | ⟨0, _⟩ => fun _ => rfl | ⟨1, _⟩ => fun hb => absurd rfl hb)
    (by show h.val + 4096 = 4096 + h.val; omega)

/-! ### The output layer -/

/-- The running sum after block k is the partial output plus the blocks 0 … k. -/
theorem accUpTo_eq (hd : Mat 4096 16384) (b : Mat 1000 16384) (outp : Mat 4096 1000) (p : Fin 4096) (o : Fin 1000) :
    ∀ (k : ℕ) (h : k < 8), accUpTo hd b outp p o k h
      = outp (ix2 p o) + ∑ i : Fin (k + 1), blockDot hd b p o ⟨i.val, by have := i.isLt; omega⟩
  | 0, h => by rw [accUpTo_zero, Fin.sum_univ_one]; rfl
  | k + 1, h => by
      rw [accUpTo_succ, accUpTo_eq hd b outp p o k (Nat.lt_of_succ_lt h), Fin.sum_univ_castSucc (n := k + 1), add_assoc]
      rfl

/-- The reference's result is mlp of the five arguments. -/
theorem reference_is_mlp :
    val_main_v9 (F := Ideal) x0 x1 x2 x3 x4 = Cert.MlpSpec.mlp x0 x1 x2 x3 x4 := by
  funext i
  obtain ⟨p, o, rfl⟩ : ∃ p o, i = ix2 p o := ⟨i 0, i 1, eq_ix2 i⟩
  rw [val_main_v9_apply, val_main_v6_apply, val_main_v8_apply, val_main_v7_apply]
  simp only [lidx6, ridx6, bidx6, Ideal.addf_def]
  rw [sum_split_of (fun c => val_main_v5 (F := Ideal) x0 x1 x2 (ix2 p c) * x3 (ix2 o c))
      (fun d => x0 (ix2 p d) * firstCols x3 (ix2 o d))
      (fun h => hidden x0 x1 (asRow x2) (ix2 p h) * lastCols x3 (ix2 o h))
      (fun d => by show _ * _ = _ * _; rw [v5_left]; rfl)
      (fun h => by show _ * _ = _ * _; rw [v5_right, v4_apply]; rfl)]
  show _ = accumAt (hidden x0 x1 (asRow x2)) (lastCols x3) (partialOut x0 (firstCols x3) (asRow x4)) p o
  unfold accumAt
  rw [accUpTo_eq]
  exact add_right_comm _ _ _

end Program

end Cert.ReferenceIdeal.RefValue

end
-- ==== Proof.lean ====
/-
  The certificate of a two-layer perceptron kernel against its jnp reference, over the extended reals.

  The kernel computes out = (x A^T + b2) + sum over eight blocks of 2048 hidden units of h_k B_k^T, with
  h = max (x W1^T + b1, 0), A and B the first 4096 and the last 16384 columns of W2, in three pallas_calls (the hidden layer;
  the part of the output layer that pairs with x; the part that pairs with h, accumulated in a scratch block over the
  hidden axis). The reference computes concat [x, h] W2^T + b2. Where a change of float format is the identity and
  every operation exact the two are the same finite sum regrouped: commutativity and associativity of addition on the
  extended reals, nothing else; the precondition is not used.

  frame_Kernel, frame_KernelIdeal: the launch over @main's four segments (the host operations, then the three regions),
    at the word-level and at the ideal instance: one text, the namespace substituted.
  frame_ReferenceIdeal: the reference's run with the result dropped.
  preserves: the ideal pass rewrote nothing.
  algebraic: the kernel's result buffer ends at the third region's write-backs, which leave the accumulation of what
    the first two regions left; that is the function `MlpSpec.mlp` of the five arguments, and so is the reference's term.
-/
import proofs.«152252_j88965952569844_1_alg».proof.Defs
import proofs.«152252_j88965952569844_1_alg».proof.Proof.Gen.Kernel
import proofs.«152252_j88965952569844_1_alg».proof.Proof.Gen.KernelIdeal
import proofs.«152252_j88965952569844_1_alg».proof.Proof.Gen.ReferenceIdeal
import proofs.«152252_j88965952569844_1_alg».proof.Proof.Gen.Pre_finite_inputs
import proofs.«152252_j88965952569844_1_alg».proof.Proof.Gen.ReferenceIdeal.Run
import proofs.«152252_j88965952569844_1_alg».proof.Proof.BitsMainRun
import proofs.«152252_j88965952569844_1_alg».proof.Proof.MainRun
import proofs.«152252_j88965952569844_1_alg».proof.Proof.KernelValue
import proofs.«152252_j88965952569844_1_alg».proof.Proof.RefValue

noncomputable section

namespace Cert.Proof

open Idealize.ShloMosaic Idealize.ShloMosaic.TcCoe Idealize.SL.Sem

/-- The word-level program runs and leaves its arguments unchanged. -/
theorem frame_kernel : Cert.frame_Kernel := fun m ρ _ =>
  (θ_run Cert.Kernel.defs _ _).mono (fun _ h c => (h c).2) (Cert.Kernel.Mlp.run_main (F := Bits) m ρ)

/-- So does its idealization. -/
theorem frame_kernelIdeal : Cert.frame_KernelIdeal := fun m ρ _ =>
  (θ_run Cert.KernelIdeal.defs _ _).mono (fun _ h c => (h c).2) (Cert.KernelIdeal.Mlp.run_main (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `MlpSpec.mlp` of arguments that agree. -/
theorem algebraic : Cert.algebraic_KernelIdeal_ReferenceIdeal := by
  intro m ρ m' ρ' _ hagree
  refine ⟨fun c => Cert.MlpSpec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Mlp.kernel_result m ρ c), (h c).2⟩)
      (Cert.KernelIdeal.Mlp.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v9_eq _ _ _ _ _).trans ?_
    refine (Cert.ReferenceIdeal.RefValue.reference_is_mlp _ _ _ _ _).trans ?_
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
